-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x3x12x64 : Shape := ⟨5, ![2, 2048, 3, 12, 64]⟩
abbrev S_ : Shape := ⟨0, ![]⟩

class Facts : Prop where
  bcast_S_S2x2048x3x12x64 : S_.BroadcastsInDim S2x2048x3x12x64 (![] : Fin 0 → Fin S2x2048x3x12x64.rank)
  reducesTo_S2x2048x3x12x64_S_d0_1_2_3_4 : S2x2048x3x12x64.ReducesTo [0, 1, 2, 3, 4] S_
  h_S_ : 0 < S_.numel

variable [Facts]

def fn {F : FTy → Type} [FloatOps F] (main_arg0 : FVec F S2x2048x3x12x64 .f32) : IVec S_ 1 :=
  let main_v0 : FVec F S2x2048x3x12x64 .f32 := Host.absf main_arg0
  let main_cst : FVec F S_ .f32 := constant S_ .f32 0x7F800000#32
  let main_v1 : FVec F S2x2048x3x12x64 .f32 := broadcastInDim S2x2048x3x12x64 ![] bcast_S_S2x2048x3x12x64 main_cst
  let main_v2 : IVec S2x2048x3x12x64 1 := cmpf .olt main_v0 main_v1
  let main_c : IVec S_ 1 := constantI S_ 1 1#1
  let main_v3 : IVec S_ 1 := (fun x v => Host.reduce IntOp.andi x v reducesTo_S2x2048x3x12x64_S_d0_1_2_3_4 h_S_) main_v2 main_c
  main_v3
-- ==== Kernel.lean ====
abbrev S2x2048x3x12x64 : Shape := ⟨5, ![2, 2048, 3, 12, 64]⟩
abbrev S2x2048x2304 : Shape := ⟨3, ![2, 2048, 2304]⟩
abbrev S2x2048x768 : Shape := ⟨3, ![2, 2048, 768]⟩
abbrev S1x512x768 : Shape := ⟨3, ![1, 512, 768]⟩
abbrev S512x1024 : Shape := ⟨2, ![512, 1024]⟩
abbrev S1x512x64 : Shape := ⟨3, ![1, 512, 64]⟩
abbrev S512x64 : Shape := ⟨2, ![512, 64]⟩
abbrev S1024x64 : Shape := ⟨2, ![1024, 64]⟩
abbrev S512 : Shape := ⟨1, ![512]⟩
abbrev S512x1 : Shape := ⟨2, ![512, 1]⟩
abbrev S2x2048x12x64 : Shape := ⟨4, ![2, 2048, 12, 64]⟩

abbrev nBuf : Space → Nat
  | .hbm => 4
  | .vmem => 12
  | .smem => 0
  | _ => 0

abbrev bufTy : (tb : Table) → Fin (tcTables nBuf tb) → BufTy
  | .hbm, ⟨0, _⟩ => ⟨S2x2048x3x12x64, .f32⟩
  | .hbm, ⟨1, _⟩ => ⟨S2x2048x2304, .f32⟩
  | .hbm, ⟨2, _⟩ => ⟨S2x2048x768, .f32⟩
  | .hbm, ⟨3, _⟩ => ⟨S2x2048x12x64, .f32⟩
  | .local _ .vmem, ⟨0, _⟩ => ⟨S1x512x768, .f32⟩
  | .local _ .vmem, ⟨1, _⟩ => ⟨S1x512x768, .f32⟩
  | .local _ .vmem, ⟨2, _⟩ => ⟨S1x512x768, .f32⟩
  | .local _ .vmem, ⟨3, _⟩ => ⟨S1x512x768, .f32⟩
  | .local _ .vmem, ⟨4, _⟩ => ⟨S1x512x768, .f32⟩
  | .local _ .vmem, ⟨5, _⟩ => ⟨S1x512x768, .f32⟩
  | .local _ .vmem, ⟨6, _⟩ => ⟨S1x512x768, .f32⟩
  | .local _ .vmem, ⟨7, _⟩ => ⟨S1x512x768, .f32⟩
  | .local _ .vmem, ⟨8, _⟩ => ⟨S1x512x768, .f32⟩
  | .local _ .vmem, ⟨9, _⟩ => ⟨S1x512x768, .f32⟩
  | .local _ .vmem, ⟨10, _⟩ => ⟨S1x512x768, .f32⟩
  | .local _ .vmem, ⟨11, _⟩ => ⟨S1x512x768, .f32⟩
  | _, _ => ⟨S2x2048x3x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let c0_i32_1 : BitVec 32 := 0#32
  ![arg0.toNat, v1.toNat, c1_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c2_i32 : BitVec 32 := 2#32
  let c0_i32_0 : BitVec 32 := 0#32
  ![arg0.toNat, v1.toNat, c2_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S2x2048x3x12x64_S2x2048x2304 : S2x2048x3x12x64.ShapeCasts S2x2048x2304
  iota_S512x1024_d0_w32 : S512x1024.Iotas .tc 32 [0]
  iota_S512x1024_d1_w32 : S512x1024.Iotas .tc 32 [1]
  inb_S1x512x768_S1x512x64_0_0_0 : ∀ a, (![0, 0, 0] : Fin 3 → Nat) a + S1x512x64.size a ≤ S1x512x768.size a
  h_S1x512x64 : 0 < S1x512x64.numel
  shapeCasts_S1x512x64_S512x64 : S1x512x64.ShapeCasts S512x64
  concatenates_S512x64_S512x64_S1024x64_d0 : Shape.Concatenates [S512x64, S512x64] S1024x64 0
  reduces_S512x1024_S512 : S512x1024.Reduces [1] S512
  shapeCasts_S512_S512x1 : S512.ShapeCasts S512x1
  broadcasts_S512x1_S512x1024 : S512x1.Broadcasts S512x1024
  broadcasts_S512x1_S512x64 : S512x1.Broadcasts S512x64
  shapeCasts_S512x64_S1x512x64 : S512x64.ShapeCasts S1x512x64
  inb_S1x512x768_S1x512x64_0_0_64 : ∀ a, (![0, 0, 64] : Fin 3 → Nat) a + S1x512x64.size a ≤ S1x512x768.size a
  inb_S1x512x768_S1x512x64_0_0_128 : ∀ a, (![0, 0, 128] : Fin 3 → Nat) a + S1x512x64.size a ≤ S1x512x768.size a
  inb_S1x512x768_S1x512x64_0_0_192 : ∀ a, (![0, 0, 192] : Fin 3 → Nat) a + S1x512x64.size a ≤ S1x512x768.size a
  inb_S1x512x768_S1x512x64_0_0_256 : ∀ a, (![0, 0, 256] : Fin 3 → Nat) a + S1x512x64.size a ≤ S1x512x768.size a
  inb_S1x512x768_S1x512x64_0_0_320 : ∀ a, (![0, 0, 320] : Fin 3 → Nat) a + S1x512x64.size a ≤ S1x512x768.size a
  inb_S1x512x768_S1x512x64_0_0_384 : ∀ a, (![0, 0, 384] : Fin 3 → Nat) a + S1x512x64.size a ≤ S1x512x768.size a
  inb_S1x512x768_S1x512x64_0_0_448 : ∀ a, (![0, 0, 448] : Fin 3 → Nat) a + S1x512x64.size a ≤ S1x512x768.size a
  inb_S1x512x768_S1x512x64_0_0_512 : ∀ a, (![0, 0, 512] : Fin 3 → Nat) a + S1x512x64.size a ≤ S1x512x768.size a
  inb_S1x512x768_S1x512x64_0_0_576 : ∀ a, (![0, 0, 576] : Fin 3 → Nat) a + S1x512x64.size a ≤ S1x512x768.size a
  inb_S1x512x768_S1x512x64_0_0_640 : ∀ a, (![0, 0, 640] : Fin 3 → Nat) a + S1x512x64.size a ≤ S1x512x768.size a
  inb_S1x512x768_S1x512x64_0_0_704 : ∀ a, (![0, 0, 704] : Fin 3 → Nat) a + S1x512x64.size a ≤ S1x512x768.size a
  shapeCasts_S2x2048x768_S2x2048x12x64 : S2x2048x768.ShapeCasts S2x2048x12x64
  dot_S512x64_S1024x64_S512x1024_1_1_0_0_n_n_wf : DotDims.WF S512x64 S1024x64 S512x1024 [1] [1] [0] [0] [] []
  dot_S512x1024_S1024x64_S512x64_1_0_0_1_n_n_wf : DotDims.WF S512x1024 S1024x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S2x2048x2304.size a
  hwx0_0 : ∀ i : grid0.Coords, EltTy.bits .f32 = 32 ∨ (Rect.block (s := S2x2048x2304) S1x512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x768.size a ≤ S2x2048x2304.size a
  hwx0_1 : ∀ i : grid0.Coords, EltTy.bits .f32 = 32 ∨ (Rect.block (s := S2x2048x2304) S1x512x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x768.size a ≤ S2x2048x2304.size a
  hwx0_2 : ∀ i : grid0.Coords, EltTy.bits .f32 = 32 ∨ (Rect.block (s := S2x2048x2304) S1x512x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x768.size a ≤ S2x2048x2304.size a
  hwx0_3 : ∀ i : grid0.Coords, EltTy.bits .f32 = 32 ∨ (Rect.block (s := S2x2048x2304) S1x512x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x768.size a ≤ S2x2048x2304.size a
  hwx0_4 : ∀ i : grid0.Coords, EltTy.bits .f32 = 32 ∨ (Rect.block (s := S2x2048x2304) S1x512x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x768.size a ≤ S2x2048x768.size a
  hwx0_5 : ∀ i : grid0.Coords, EltTy.bits .f32 = 32 ∨ (Rect.block (s := S2x2048x768) S1x512x768.size (cc0_transform_5 i) (hinb0_5 i)).WholeWords (EltTy.packing .f32)

variable [Facts₀]

def dot_S512x64_S1024x64_S512x1024_1_1_0_0_n_n : DotDims S512x64 S1024x64 S512x1024 where
  lhsContracting := [1]
  rhsContracting := [1]
  lhsNonContracting := [0]
  rhsNonContracting := [0]
  lhsBatch := []
  rhsBatch := []
  wf := dot_S512x64_S1024x64_S512x1024_1_1_0_0_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf

abbrev win0_0 : Pipeline.Window sig grid0 :=
  Pipeline.Window.ofSpec (Memref.whole main_v0) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512x768.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x512x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x2048x3x12x64 : Shape := ⟨5, ![2, 2048, 3, 12, 64]⟩
abbrev S2x2048x1x12x64 : Shape := ⟨5, ![2, 2048, 1, 12, 64]⟩
abbrev S2x2048x12x64 : Shape := ⟨4, ![2, 2048, 12, 64]⟩
abbrev S2x12x2048x64 : Shape := ⟨4, ![2, 12, 2048, 64]⟩
abbrev S2x12x2048x2048 : Shape := ⟨4, ![2, 12, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S2x12x2048 : Shape := ⟨3, ![2, 12, 2048]⟩
abbrev S2x12x2048x1 : Shape := ⟨4, ![2, 12, 2048, 1]⟩

abbrev nBuf : Space → Nat
  | .hbm => 50
  | .vmem => 0
  | .smem => 0
  | _ => 0

abbrev bufTy : (tb : Table) → Fin (tcTables nBuf tb) → BufTy
  | .hbm, ⟨0, _⟩ => ⟨S2x2048x3x12x64, .f32⟩
  | .hbm, ⟨1, _⟩ => ⟨S2x2048x1x12x64, .f32⟩
  | .hbm, ⟨2, _⟩ => ⟨S2x2048x12x64, .f32⟩
  | .hbm, ⟨3, _⟩ => ⟨S2x12x2048x64, .f32⟩
  | .hbm, ⟨4, _⟩ => ⟨S2x2048x1x12x64, .f32⟩
  | .hbm, ⟨5, _⟩ => ⟨S2x2048x12x64, .f32⟩
  | .hbm, ⟨6, _⟩ => ⟨S2x12x2048x64, .f32⟩
  | .hbm, ⟨7, _⟩ => ⟨S2x2048x1x12x64, .f32⟩
  | .hbm, ⟨8, _⟩ => ⟨S2x2048x12x64, .f32⟩
  | .hbm, ⟨9, _⟩ => ⟨S2x12x2048x64, .f32⟩
  | .hbm, ⟨10, _⟩ => ⟨S2x12x2048x2048, .f32⟩
  | .hbm, ⟨11, _⟩ => ⟨S_, .f32⟩
  | .hbm, ⟨12, _⟩ => ⟨S2x12x2048x2048, .f32⟩
  | .hbm, ⟨13, _⟩ => ⟨S2x12x2048x2048, .f32⟩
  | .hbm, ⟨14, _⟩ => ⟨S2048, .i32⟩
  | .hbm, ⟨15, _⟩ => ⟨S2048x1, .i32⟩
  | .hbm, ⟨16, _⟩ => ⟨S2048, .i32⟩
  | .hbm, ⟨17, _⟩ => ⟨S1x2048, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S2048x2048, .i32⟩
  | .hbm, ⟨22, _⟩ => ⟨S2048x2048, .i32⟩
  | .hbm, ⟨23, _⟩ => ⟨S2048x2048, .i32⟩
  | .hbm, ⟨24, _⟩ => ⟨S_, .i32⟩
  | .hbm, ⟨25, _⟩ => ⟨S2048x2048, .i32⟩
  | .hbm, ⟨26, _⟩ => ⟨S2048x2048, .i1⟩
  | .hbm, ⟨27, _⟩ => ⟨S2048x2048, .i1⟩
  | .hbm, ⟨28, _⟩ => ⟨S1x1x2048x2048, .i1⟩
  | .hbm, ⟨29, _⟩ => ⟨S_, .f32⟩
  | .hbm, ⟨30, _⟩ => ⟨S_, .f32⟩
  | .hbm, ⟨31, _⟩ => ⟨S2x12x2048x2048, .i1⟩
  | .hbm, ⟨32, _⟩ => ⟨S2x12x2048x2048, .f32⟩
  | .hbm, ⟨33, _⟩ => ⟨S2x12x2048x2048, .f32⟩
  | .hbm, ⟨34, _⟩ => ⟨S_, .f32⟩
  | .hbm, ⟨35, _⟩ => ⟨S2x12x2048, .f32⟩
  | .hbm, ⟨36, _⟩ => ⟨S_, .f32⟩
  | .hbm, ⟨37, _⟩ => ⟨S2x12x2048, .f32⟩
  | .hbm, ⟨38, _⟩ => ⟨S2x12x2048, .f32⟩
  | .hbm, ⟨39, _⟩ => ⟨S2x12x2048x1, .f32⟩
  | .hbm, ⟨40, _⟩ => ⟨S2x12x2048x2048, .f32⟩
  | .hbm, ⟨41, _⟩ => ⟨S2x12x2048x2048, .f32⟩
  | .hbm, ⟨42, _⟩ => ⟨S2x12x2048x2048, .f32⟩
  | .hbm, ⟨43, _⟩ => ⟨S_, .f32⟩
  | .hbm, ⟨44, _⟩ => ⟨S2x12x2048, .f32⟩
  | .hbm, ⟨45, _⟩ => ⟨S2x12x2048x1, .f32⟩
  | .hbm, ⟨46, _⟩ => ⟨S2x12x2048x2048, .f32⟩
  | .hbm, ⟨47, _⟩ => ⟨S2x12x2048x2048, .f32⟩
  | .hbm, ⟨48, _⟩ => ⟨S2x12x2048x64, .f32⟩
  | .hbm, ⟨49, _⟩ => ⟨S2x2048x12x64, .f32⟩
  | _, _ => ⟨S2x2048x3x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_c : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]

class Facts₀ : Prop where
  slices_S2x2048x3x12x64_S2x2048x1x12x64_0_0_0_0_0 : S2x2048x3x12x64.Slices ![0, 0, 0, 0, 0] S2x2048x1x12x64
  shapeCasts_S2x2048x1x12x64_S2x2048x12x64 : S2x2048x1x12x64.ShapeCasts S2x2048x12x64
  transposes_S2x2048x12x64_S2x12x2048x64_0_2_1_3 : S2x2048x12x64.Transposes [0, 2, 1, 3] S2x12x2048x64
  slices_S2x2048x3x12x64_S2x2048x1x12x64_0_0_1_0_0 : S2x2048x3x12x64.Slices ![0, 0, 1, 0, 0] S2x2048x1x12x64
  slices_S2x2048x3x12x64_S2x2048x1x12x64_0_0_2_0_0 : S2x2048x3x12x64.Slices ![0, 0, 2, 0, 0] S2x2048x1x12x64
  bcast_S_S2x12x2048x2048 : S_.BroadcastsInDim S2x12x2048x2048 (![] : Fin 0 → Fin S2x12x2048x2048.rank)
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S2x12x2048x2048_0_1_2_3 : S1x1x2048x2048.BroadcastsInDim S2x12x2048x2048 (![0, 1, 2, 3] : Fin 4 → Fin S2x12x2048x2048.rank)
  reducesTo_S2x12x2048x2048_S2x12x2048_d3 : S2x12x2048x2048.ReducesTo [3] S2x12x2048
  h_S_ : 0 < S_.numel
  bcast_S_S2x12x2048 : S_.BroadcastsInDim S2x12x2048 (![] : Fin 0 → Fin S2x12x2048.rank)
  bcast_S2x12x2048_S2x12x2048x1_0_1_2 : S2x12x2048.BroadcastsInDim S2x12x2048x1 (![0, 1, 2] : Fin 3 → Fin S2x12x2048x1.rank)
  bcast_S2x12x2048x1_S2x12x2048x2048_0_1_2_3 : S2x12x2048x1.BroadcastsInDim S2x12x2048x2048 (![0, 1, 2, 3] : Fin 4 → Fin S2x12x2048x2048.rank)
  transposes_S2x12x2048x64_S2x2048x12x64_0_2_1_3 : S2x12x2048x64.Transposes [0, 2, 1, 3] S2x2048x12x64
  dot_S2x12x2048x64_S2x12x2048x64_S2x12x2048x2048_3_3_2_2_01_01_wf : DotDims.WF S2x12x2048x64 S2x12x2048x64 S2x12x2048x2048 [3] [3] [2] [2] [0, 1] [0, 1]
  dot_S2x12x2048x2048_S2x12x2048x64_S2x12x2048x64_3_2_2_3_01_01_wf : DotDims.WF S2x12x2048x2048 S2x12x2048x64 S2x12x2048x64 [3] [2] [2] [3] [0, 1] [0, 1]

variable [Facts₀]

def dot_S2x12x2048x64_S2x12x2048x64_S2x12x2048x2048_3_3_2_2_01_01 : DotDims S2x12x2048x64 S2x12x2048x64 S2x12x2048x2048 where
  lhsContracting := [3]
  rhsContracting := [3]
  lhsNonContracting := [2]
  rhsNonContracting := [2]
  lhsBatch := [0, 1]
  rhsBatch := [0, 1]
  wf := dot_S2x12x2048x64_S2x12x2048x64_S2x12x2048x2048_3_3_2_2_01_01_wf
def dot_S2x12x2048x2048_S2x12x2048x64_S2x12x2048x64_3_2_2_3_01_01 : DotDims S2x12x2048x2048 S2x12x2048x64 S2x12x2048x64 where
  lhsContracting := [3]
  rhsContracting := [2]
  lhsNonContracting := [2]
  rhsNonContracting := [3]
  lhsBatch := [0, 1]
  rhsBatch := [0, 1]
  wf := dot_S2x12x2048x2048_S2x12x2048x64_S2x12x2048x64_3_2_2_3_01_01_wf

class Facts : Prop extends Facts₀ where

variable [Facts]
-- ==== Proof.BBody.lean ====
/-
  The kernel body of the banded attention call, run once on whole staging buffers: twelve heads, each reading the
  64-column slab of the five input blocks at its own column offset (queries, the previous and the current key block,
  the previous and the current value block) and storing one 512 x 64 slab of the output block. The output buffer
  after the body is the overlay of the twelve stored slabs, which tile the block's 768 columns.
-/
import proofs.«164029_g46823733461303_cont_8to1_c_288_3_alg».proof.Proof.Gen.Kernel.Launch
import proofs.«164029_g46823733461303_cont_8to1_c_288_3_alg».proof.Proof.Gen.Kernel.Skeleton
import proofs.«164029_g46823733461303_cont_8to1_c_288_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The twelve column slabs -/

abbrev r0 : Rect S1x512x768 := Rect.unit (s := S1x512x768) ![0, 0, 0] S1x512x64.size inb_S1x512x768_S1x512x64_0_0_0
abbrev r64 : Rect S1x512x768 := Rect.unit (s := S1x512x768) ![0, 0, 64] S1x512x64.size inb_S1x512x768_S1x512x64_0_0_64
abbrev r128 : Rect S1x512x768 := Rect.unit (s := S1x512x768) ![0, 0, 128] S1x512x64.size inb_S1x512x768_S1x512x64_0_0_128
abbrev r192 : Rect S1x512x768 := Rect.unit (s := S1x512x768) ![0, 0, 192] S1x512x64.size inb_S1x512x768_S1x512x64_0_0_192
abbrev r256 : Rect S1x512x768 := Rect.unit (s := S1x512x768) ![0, 0, 256] S1x512x64.size inb_S1x512x768_S1x512x64_0_0_256
abbrev r320 : Rect S1x512x768 := Rect.unit (s := S1x512x768) ![0, 0, 320] S1x512x64.size inb_S1x512x768_S1x512x64_0_0_320
abbrev r384 : Rect S1x512x768 := Rect.unit (s := S1x512x768) ![0, 0, 384] S1x512x64.size inb_S1x512x768_S1x512x64_0_0_384
abbrev r448 : Rect S1x512x768 := Rect.unit (s := S1x512x768) ![0, 0, 448] S1x512x64.size inb_S1x512x768_S1x512x64_0_0_448
abbrev r512 : Rect S1x512x768 := Rect.unit (s := S1x512x768) ![0, 0, 512] S1x512x64.size inb_S1x512x768_S1x512x64_0_0_512
abbrev r576 : Rect S1x512x768 := Rect.unit (s := S1x512x768) ![0, 0, 576] S1x512x64.size inb_S1x512x768_S1x512x64_0_0_576
abbrev r640 : Rect S1x512x768 := Rect.unit (s := S1x512x768) ![0, 0, 640] S1x512x64.size inb_S1x512x768_S1x512x64_0_0_640
abbrev r704 : Rect S1x512x768 := Rect.unit (s := S1x512x768) ![0, 0, 704] S1x512x64.size inb_S1x512x768_S1x512x64_0_0_704

/-! ## What each head stores -/

/-- What head 0's store writes: the body's arithmetic on the five blocks' column slabs at offset 0, composed from the skeleton's payloads. -/
def st0 (i : grid0.Coords) (x0 x1 x2 x3 x4 : Vec F S1x512x768 .f32) : Vec F S1x512x64 .f32 :=
  k0_pay6 (k0_pay2 i) (k0_pay3 (View.ld x3 r0) (View.ld x4 r0)) (k0_pay4 (View.ld x0 r0) (View.ld x1 r0) (View.ld x2 r0)) (k0_pay5 (F := F))

/-- What head 1's store writes: the body's arithmetic on the five blocks' column slabs at offset 64, composed from the skeleton's payloads. -/
def st1 (i : grid0.Coords) (x0 x1 x2 x3 x4 : Vec F S1x512x768 .f32) : Vec F S1x512x64 .f32 :=
  k0_pay10 (k0_pay7 (View.ld x3 r64) (View.ld x4 r64)) (k0_pay8 (k0_pay2 i) (View.ld x0 r64) (View.ld x1 r64) (View.ld x2 r64)) (k0_pay9 (k0_pay2 i) (View.ld x0 r64) (View.ld x1 r64) (View.ld x2 r64))

/-- What head 2's store writes: the body's arithmetic on the five blocks' column slabs at offset 128, composed from the skeleton's payloads. -/
def st2 (i : grid0.Coords) (x0 x1 x2 x3 x4 : Vec F S1x512x768 .f32) : Vec F S1x512x64 .f32 :=
  k0_pay14 (k0_pay11 (View.ld x3 r128) (View.ld x4 r128)) (k0_pay12 (k0_pay2 i) (View.ld x0 r128) (View.ld x1 r128) (View.ld x2 r128)) (k0_pay13 (k0_pay2 i) (View.ld x0 r128) (View.ld x1 r128) (View.ld x2 r128))

/-- What head 3's store writes: the body's arithmetic on the five blocks' column slabs at offset 192, composed from the skeleton's payloads. -/
def st3 (i : grid0.Coords) (x0 x1 x2 x3 x4 : Vec F S1x512x768 .f32) : Vec F S1x512x64 .f32 :=
  k0_pay16 (k0_pay15 (k0_pay2 i) (View.ld x0 r192) (View.ld x1 r192) (View.ld x2 r192) (View.ld x3 r192) (View.ld x4 r192))

/-- What head 4's store writes: the body's arithmetic on the five blocks' column slabs at offset 256, composed from the skeleton's payloads. -/
def st4 (i : grid0.Coords) (x0 x1 x2 x3 x4 : Vec F S1x512x768 .f32) : Vec F S1x512x64 .f32 :=
  k0_pay17 (k0_pay2 i) (View.ld x0 r256) (View.ld x1 r256) (View.ld x2 r256) (View.ld x3 r256) (View.ld x4 r256)

/-- What head 5's store writes: the body's arithmetic on the five blocks' column slabs at offset 320, composed from the skeleton's payloads. -/
def st5 (i : grid0.Coords) (x0 x1 x2 x3 x4 : Vec F S1x512x768 .f32) : Vec F S1x512x64 .f32 :=
  k0_pay18 (k0_pay2 i) (View.ld x0 r320) (View.ld x1 r320) (View.ld x2 r320) (View.ld x3 r320) (View.ld x4 r320)

/-- What head 6's store writes: the body's arithmetic on the five blocks' column slabs at offset 384, composed from the skeleton's payloads. -/
def st6 (i : grid0.Coords) (x0 x1 x2 x3 x4 : Vec F S1x512x768 .f32) : Vec F S1x512x64 .f32 :=
  k0_pay19 (k0_pay2 i) (View.ld x0 r384) (View.ld x1 r384) (View.ld x2 r384) (View.ld x3 r384) (View.ld x4 r384)

/-- What head 7's store writes: the body's arithmetic on the five blocks' column slabs at offset 448, composed from the skeleton's payloads. -/
def st7 (i : grid0.Coords) (x0 x1 x2 x3 x4 : Vec F S1x512x768 .f32) : Vec F S1x512x64 .f32 :=
  k0_pay21 (k0_pay2 i) (k0_pay20 (View.ld x0 r448)) (View.ld x1 r448) (View.ld x2 r448) (View.ld x3 r448) (View.ld x4 r448)

/-- What head 8's store writes: the body's arithmetic on the five blocks' column slabs at offset 512, composed from the skeleton's payloads. -/
def st8 (i : grid0.Coords) (x0 x1 x2 x3 x4 : Vec F S1x512x768 .f32) : Vec F S1x512x64 .f32 :=
  k0_pay24 (k0_pay2 i) (k0_pay22 (View.ld x0 r512)) (k0_pay23 (View.ld x1 r512)) (View.ld x2 r512) (View.ld x3 r512) (View.ld x4 r512)

/-- What head 9's store writes: the body's arithmetic on the five blocks' column slabs at offset 576, composed from the skeleton's payloads. -/
def st9 (i : grid0.Coords) (x0 x1 x2 x3 x4 : Vec F S1x512x768 .f32) : Vec F S1x512x64 .f32 :=
  k0_pay27 (k0_pay2 i) (k0_pay25 (View.ld x0 r576)) (k0_pay26 (View.ld x1 r576) (View.ld x2 r576)) (View.ld x3 r576) (View.ld x4 r576)

/-- What head 10's store writes: the body's arithmetic on the five blocks' column slabs at offset 640, composed from the skeleton's payloads. -/
def st10 (i : grid0.Coords) (x0 x1 x2 x3 x4 : Vec F S1x512x768 .f32) : Vec F S1x512x64 .f32 :=
  k0_pay31 (k0_pay2 i) (k0_pay28 (View.ld x0 r640)) (k0_pay29 (View.ld x1 r640) (View.ld x2 r640)) (k0_pay30 (View.ld x3 r640)) (View.ld x4 r640)

/-- What head 11's store writes: the body's arithmetic on the five blocks' column slabs at offset 704, composed from the skeleton's payloads. -/
def st11 (i : grid0.Coords) (x0 x1 x2 x3 x4 : Vec F S1x512x768 .f32) : Vec F S1x512x64 .f32 :=
  k0_pay1 (k0_pay2 i) (k0_pay32 (View.ld x0 r704)) (k0_pay33 (View.ld x1 r704) (View.ld x2 r704)) (k0_pay34 (View.ld x3 r704)) (k0_pay35 (View.ld x4 r704))

/-- The output block after the body: the twelve stored slabs, last first. -/
def out0_5 (i : grid0.Coords) (x0 x1 x2 x3 x4 : Vec F S1x512x768 .f32) : Vec F S1x512x768 .f32 :=
  View.canon [
    ⟨r704, st11 i x0 x1 x2 x3 x4⟩,
    ⟨r640, st10 i x0 x1 x2 x3 x4⟩,
    ⟨r576, st9 i x0 x1 x2 x3 x4⟩,
    ⟨r512, st8 i x0 x1 x2 x3 x4⟩,
    ⟨r448, st7 i x0 x1 x2 x3 x4⟩,
    ⟨r384, st6 i x0 x1 x2 x3 x4⟩,
    ⟨r320, st5 i x0 x1 x2 x3 x4⟩,
    ⟨r256, st4 i x0 x1 x2 x3 x4⟩,
    ⟨r192, st3 i x0 x1 x2 x3 x4⟩,
    ⟨r128, st2 i x0 x1 x2 x3 x4⟩,
    ⟨r64, st1 i x0 x1 x2 x3 x4⟩,
    ⟨r0, st0 i x0 x1 x2 x3 x4⟩]

/-- The twelve slabs tile the block, so they cover it. -/
theorem cover0_5 (p0 p1 p2 p3 p4 p5 p6 p7 p8 p9 p10 p11 : Vec F S1x512x64 .f32) (y : S1x512x768.Idx) :
    ∃ pc ∈ ([⟨r704, p11⟩, ⟨r640, p10⟩, ⟨r576, p9⟩, ⟨r512, p8⟩, ⟨r448, p7⟩, ⟨r384, p6⟩, ⟨r320, p5⟩, ⟨r256, p4⟩, ⟨r192, p3⟩, ⟨r128, p2⟩, ⟨r64, p1⟩, ⟨r0, p0⟩] : List (View.Piece (Elt F) S1x512x768 .f32)), y ∈ pc.1.set :=
  View.cover_of_tiled [⟨r704, p11⟩, ⟨r640, p10⟩, ⟨r576, p9⟩, ⟨r512, p8⟩, ⟨r448, p7⟩, ⟨r384, p6⟩, ⟨r320, p5⟩, ⟨r256, p4⟩, ⟨r192, p3⟩, ⟨r128, p2⟩, ⟨r64, p1⟩, ⟨r0, p0⟩] S1x512x64.size (by rfl) y

/-! ## The body's triple -/

/-- The body on whole staging memrefs: the five inputs at contents `x0 … x4` (queries, previous keys, keys, previous
    values, values), the output at anything; it leaves the inputs as they were and the output at `out0_5`. -/
theorem sound_kernel (c : Dev nD) (E : Set ℕ) (i : grid0.Coords)
    (arg2 : Memref sig .tc .vmem S1x512x768 .f32) (harg2 : arg2.IsWhole) (arg3 : Memref sig .tc .vmem S1x512x768 .f32) (harg3 : arg3.IsWhole)
    (arg4 : Memref sig .tc .vmem S1x512x768 .f32) (harg4 : arg4.IsWhole) (arg5 : Memref sig .tc .vmem S1x512x768 .f32) (harg5 : arg5.IsWhole)
    (arg6 : Memref sig .tc .vmem S1x512x768 .f32) (harg6 : arg6.IsWhole) (arg7 : Memref sig .tc .vmem S1x512x768 .f32) (harg7 : arg7.IsWhole)
    (x0 x1 x2 x3 x4 : Vec F S1x512x768 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out0_5 i x0 x1 x2 x3 x4)) -∗ K ⟨⟩))
      ⊢ wp frame (wpE (defs₀ (F := F)) Variants.none c none) E (cc0__attn_kernel i arg2 harg2 arg3 harg3 arg4 harg4 arg5 harg5 arg6 harg6 arg7 harg7) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _ _ _ _ _ _ _ _ _ _ _ _)

end Cert.Kernel.Hand

end
-- ==== Proof.BRun.lean ====
/-
  The run of the banded attention program: one reshape of the packed input into [2, 2048, 2304], the kernel
  region over the 2 x 4 grid, and one reshape of the [2, 2048, 768] result into [2, 2048, 12, 64]. The five input
  windows (queries; previous and current key block; previous and current value block) all stage blocks of the
  ONE reshaped array, so that array is lent to them in five shares; the output window owns its array whole.
-/
import proofs.«164029_g46823733461303_cont_8to1_c_288_3_alg».proof.Proof.BBody
import Idealize.ShloMosaic.Lib.Pipeline.FrameSuffix
import Mathlib.Logic.Function.Basic
import Mathlib.Data.Finset.Insert

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffers when the region is entered: the launch contents after the one reshape. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

/-- @main is the reshape, the region, the reshape. -/
theorem hmain (𝒱₀ : Variants) : Pipeline.HMainK (Ix := Unit) (Name := ℕ) (U := UR sig nD τ) (Lvl := ℕ) cfgs 0 defs₀ 𝒱₀ m (main (F := F)) (V m)
    (fun _ => Pipeline.chain ([hostOps1].map StableHlo.seq)) :=
  Pipeline.hmain_around cfgs 0 defs₀ 𝒱₀ m main [hostOps0] [hostOps1] (by simp only [List.Forall]; exact hostOps0_sub)
    (by simp only [List.Forall]; repeat' constructor) (fun c => (main_chain c).trans rfl)

/-- The packed input reaches the region as launched. -/
theorem V_main_arg0 (c : Dev nD) : V m c main_arg0 = m ((c : Thread nD τ).loc main_arg0) := by
  dsimp only [V, V0]; simp only [hostOps0, List.flatten_cons, List.flatten_nil, List.append_nil]; after_results

/-- The array the windows stage is the packed input re-laid as [2, 2048, 2304]. -/
theorem V_main_v0 (c : Dev nD) :
    (V m c main_v0 : FVec F S2x2048x2304 .f32) = shapeCast S2x2048x2304 (m ((c : Thread nD τ).loc main_arg0) : FVec F S2x2048x3x12x64 .f32) shapeCasts_S2x2048x3x12x64_S2x2048x2304 := by
  dsimp only [V, V0]; simp only [hostOps0, List.flatten_cons, List.flatten_nil, List.append_nil]; after_results; rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data on core `c`: the arrays as the region finds them; after the body each input's buffer at its block
    and the output's at `out0_5` of the five input blocks; the class invariant; nothing owed; the shared array lent
    in five shares, one per input window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (grid0.coords t) (iblk m c 0 t) (iblk m c 1 t) (iblk m c 2 t) (iblk m c 3 t) (iblk m c 4 t)
  Φ _ := Pipeline.ΦA spec0 c
  q w := match w with
    | ⟨0, _⟩ => fullShare.left
    | ⟨1, _⟩ => fullShare.right.left
    | ⟨2, _⟩ => fullShare.right.right.left
    | ⟨3, _⟩ => fullShare.right.right.right.left
    | ⟨4, _⟩ => fullShare.right.right.right.right
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = out0_5 (grid0.coords t) (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`: the invariant, the owed tokens, and the six current staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the five inputs' buffers hold their blocks, so the body's triple applies; the invariant
    and the owed tokens pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

/-- The output array after the last write-back. -/
def outArr (c : Dev nD) : FVec F S2x2048x768 .f32 := (dats m 0 c).arrAt 5 cfg0.N

/-! ## The launch -/

/-- What bypasses the region on core `c`, as the region is entered: the packed input and the result buffer. -/
def Zin (c : Dev nD) : sProp 𝕄 :=
  iprop((((c : Thread nD τ).loc main_arg0) ↦{fullShare} V m c main_arg0) ∗ (((c : Thread nD τ).loc main_v2) ↦{fullShare} V m c main_v2))

/-- and as @main ends: the packed input untouched, the result buffer at the output array re-laid as [2, 2048, 12, 64]. -/
def Zout (c : Dev nD) : sProp 𝕄 :=
  iprop((((c : Thread nD τ).loc main_arg0) ↦{fullShare} V m c main_arg0)
    ∗ (((c : Thread nD τ).loc main_v2) ↦{fullShare} (shapeCast S2x2048x12x64 (outArr m c) shapeCasts_S2x2048x768_S2x2048x12x64 : FVec F S2x2048x12x64 .f32)))

/-- What bypasses the region, enumerated: the packed input and the result buffer. -/
theorem rest_eq (c : Dev nD) :
    (Pipeline.unscopedRestP (Ix := Unit) (Name := ℕ) (U := UR sig nD τ) (Lvl := ℕ) Pipeline.Prefetch.none spec0 c (V m c) : sProp 𝕄) = Zin m c := by
  rw [Pipeline.unscopedRestP_none, unscopedRest0_eq]; rfl

/-- The share each window holds its array at: the input windows the five parts of the reshaped input's full share, the
    output window its array whole. -/
theorem share0_0 (c : Dev nD) : (dats m 0 c).share 0 = fullShare.left := rfl
theorem share0_1 (c : Dev nD) : (dats m 0 c).share 1 = fullShare.right.left := rfl
theorem share0_2 (c : Dev nD) : (dats m 0 c).share 2 = fullShare.right.right.left := rfl
theorem share0_3 (c : Dev nD) : (dats m 0 c).share 3 = fullShare.right.right.right.left := rfl
theorem share0_4 (c : Dev nD) : (dats m 0 c).share 4 = fullShare.right.right.right.right := rfl
theorem share0_5 (c : Dev nD) : (dats m 0 c).share 5 = fullShare := rfl

/-- The two buffers behind the six windows, each whole at the full share, make the pipeline's arrays at entry: the
    reshaped input's full share is halved four times, one share per input window; the output window takes its array whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have himg : (Finset.univ.image (Pipeline.arrRef spec0) : Finset (Ref sig .tc)) = {main_v0, main_v1} := by decide
  have key : ∀ w : Fin 6, (((cfg0.win w).arr.view.loc (c.tc : Thread nD τ)) ↦[(cfg0.win w).arr.view.set]{(dats m 0 c).share w} (dats m 0 c).arrAt w 0 : sProp 𝕄)
      = (((c.tc : Thread nD τ).loc (Pipeline.arrRef spec0 w)) ↦{(dats m 0 c).share w} V m c (Pipeline.arrRef spec0 w)) := fun w => by
    rw [(arr_whole0 w).set_eq_univ]; rfl
  unfold Pipeline.arrBufs Dat.arrays
  rw [himg, bigSep_insert (by decide), bigSep_singleton, bigSep_W0, key 0, key 1, key 2, key 3, key 4, key 5,
    share0_0, share0_1, share0_2, share0_3, share0_4, share0_5]
  refine (show iprop((((c.tc : Thread nD τ).loc main_v0) ↦{fullShare} V m c main_v0) ∗ (((c.tc : Thread nD τ).loc main_v1) ↦{fullShare} V m c main_v1)) ⊢ _ from ?_)
  iintro ⟨H0, H1⟩
  ihave H0 := (pointsTo_share (PosShare.mem_left_op_right fullShare)).1 $$ H0
  icases H0 with ⟨Ha, H0⟩
  ihave H0 := (pointsTo_share (PosShare.mem_left_op_right fullShare.right)).1 $$ H0
  icases H0 with ⟨Hb, H0⟩
  ihave H0 := (pointsTo_share (PosShare.mem_left_op_right fullShare.right.right)).1 $$ H0
  icases H0 with ⟨Hc, H0⟩
  ihave H0 := (pointsTo_share (PosShare.mem_left_op_right fullShare.right.right.right)).1 $$ H0
  icases H0 with ⟨Hd, He⟩
  isplitl [Ha]; · iexact Ha
  isplitl [Hb]; · iexact Hb
  isplitl [Hc]; · iexact Hc
  isplitl [Hd]; · iexact Hd
  isplitl [He]; · iexact He
  iexact H1

/-- The two buffers the last reshape touches: the output array and the result buffer. -/
abbrev tailSet : Finset (DevRef τ sig) := {Proc.devRef .tc main_v1, Proc.devRef .tc main_v2}

/-- Core `c`'s buffers as the region leaves them: the output array after the last write-back, every other buffer as entered. -/
def Wout (c : Dev nD) : Valuation τ sig (Elt F) :=
  Function.update (V0 m c) (Proc.devRef .tc main_v1) (outArr m c)

theorem Wout_v1 (c : Dev nD) : Wout m c (Proc.devRef .tc main_v1) = outArr m c :=
  Function.update_self _ _ _
theorem Wout_v2 (c : Dev nD) : Wout m c (Proc.devRef .tc main_v2) = V m c main_v2 :=
  Function.update_of_ne (StableHlo.devRef_ne_of_ne (by decide)) _ _

/-- The two buffers held whole at a valuation, one by one. -/
theorem held_tail (c : Dev nD) (W : Valuation τ sig (Elt F)) :
    (StableHlo.held (Ix := Unit) (Name := ℕ) (U := UR sig nD τ) (Lvl := ℕ) (c.tc : Thread nD τ) tailSet W : sProp 𝕄)
      = iprop((((c.tc : Thread nD τ).loc main_v1) ↦{fullShare} W (Proc.devRef .tc main_v1))
          ∗ (((c.tc : Thread nD τ).loc main_v2) ↦{fullShare} W (Proc.devRef .tc main_v2))) := by
  unfold StableHlo.held tailSet
  rw [bigSep_insert (by rw [Finset.mem_singleton]; exact StableHlo.devRef_ne_of_ne (by decide)), bigSep_singleton]
  rfl

/-- The last reshape leaves the output array as it found it -/
theorem after_v1 (c : Dev nD) : StableHlo.after (List.flatten [hostOps1]) (Wout m c) (Proc.devRef .tc main_v1) = outArr m c := by
  simp only [hostOps1, List.flatten_cons, List.flatten_nil, List.append_nil]; after_results; exact Wout_v1 m c
/-- and the result buffer at the output array re-laid as [2, 2048, 12, 64]. -/
theorem after_v2 (c : Dev nD) : (StableHlo.after (List.flatten [hostOps1]) (Wout m c) (Proc.devRef .tc main_v2) : FVec F S2x2048x12x64 .f32)
    = shapeCast S2x2048x12x64 (outArr m c) shapeCasts_S2x2048x768_S2x2048x12x64 := by
  simp only [hostOps1, List.flatten_cons, List.flatten_nil, List.append_nil]; after_results; rw [Wout_v1]; rfl

/-- After the region: the last reshape reads the output array and writes the result buffer; the arrays come back as they were. -/
theorem htail (c : Dev nD) (Q' : PUnit → sProp 𝕄) :
    iprop((iprop((dats m 0 c).arrays ((dats m 0 c).arrAt · cfg0.N) ∗ Zout m c) -∗ Q' ⟨⟩)
        ∗ boundary (c.tc : Thread nD τ) ∗ (dats m 0 c).arrays ((dats m 0 c).arrAt · cfg0.N) ∗ Zin m c)
      ⊢ wp frame (wpE (Pipeline.defs (fun q => (cfgs q).toPCfg (Val := Elt F)) defs₀) (Variants.lift Variants.none) (c.tc : Thread nD τ) none) Set.univ
          (Pipeline.chain ([hostOps1].map StableHlo.seq)) Q' := by
  have key5 : (((cfg0.win 5).arr.view.loc (c.tc : Thread nD τ)) ↦[(cfg0.win 5).arr.view.set]{(dats m 0 c).share 5} (dats m 0 c).arrAt 5 cfg0.N : sProp 𝕄)
      = (((c.tc : Thread nD τ).loc main_v1) ↦{fullShare} outArr m c) := by
    rw [(arr_whole0 5).set_eq_univ, share0_5]; rfl
  have hS : ∀ ops ∈ ([hostOps1] : List (List (HloOp τ sig (Elt F)))), ∀ op ∈ ops, op.bufs ⊆ tailSet := by
    intro ops hops op hop
    rw [List.mem_singleton] at hops; subst hops
    rw [List.mem_singleton] at hop; subst hop
    exact subset_refl _
  have hf : ∀ ops ∈ ([hostOps1] : List (List (HloOp τ sig (Elt F)))), ∀ op ∈ ops, op.fresh = ∅ := by
    intro ops hops op hop
    rw [List.mem_singleton] at hops; subst hops
    rw [List.mem_singleton] at hop; subst hop
    rfl
  unfold Dat.arrays Zin Zout
  rw [bigSep_W0, key5, ← List.append_nil ([hostOps1].map StableHlo.seq)]
  iintro ⟨Hk, Hb, ⟨A0, A1, A2, A3, A4, A5⟩, Harg, Hv2⟩
  iapply (Pipeline.wp_seqs_then (fun q => (cfgs q).toPCfg (Val := Elt F)) defs₀ Variants.none c tailSet [] [hostOps1] hS hf (Wout m c)) $$ [Hb A5 Hv2]
  · isplitl [Hb]; · iexact Hb
    rw [held_tail, Wout_v1, Wout_v2]
    isplitl [A5]; · iexact A5
    iexact Hv2
  iintro Hh
  rw [Pipeline.chain_nil, wp_pure, held_tail, after_v1, after_v2]
  imodintro
  iapply Hk
  icases Hh with ⟨-, A5, Hv2⟩
  isplitr [Harg Hv2]
  · isplitl [A0]; · iexact A0
    isplitl [A1]; · iexact A1
    isplitl [A2]; · iexact A2
    isplitl [A3]; · iexact A3
    isplitl [A4]; · iexact A4
    iexact A5
  · isplitl [Harg]; · iexact Harg
    iexact Hv2

set_option backward.isDefEq.respectTransparency.types false in
/-- Every weakly fair execution of @main terminates; the result is the output array re-laid as
    [2, 2048, 12, 64], and the packed input ends as launched. -/
theorem run_main : θ_run defs (onTc (τ := τ) (main (F := F))) ⟨m, fun _ => 0, ρ⟩ (fun r => ∀ c : Dev nD,
      r.2.mem ((c.tc : Thread nD τ).loc main_v2)
        = (shapeCast S2x2048x12x64 (outArr m c) shapeCasts_S2x2048x768_S2x2048x12x64 : FVec F S2x2048x12x64 .f32)
      ∧ r.2.mem ((c.tc : Thread nD τ).loc main_arg0) = m ((c.tc : Thread nD τ).loc main_arg0)) := by
  classical
  refine Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain ([hostOps1].map StableHlo.seq)) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := ?hu) (V := V m) (hmain := hmain m Variants.none) (hsplit := hsplit m) (hpf := fun _ k => k.elim0)
    (X := fun c => iprop(∃ r, prngReg c r)) (Y := fun c => iprop(∃ r, prngReg c r)) (Z := Zin m) (Z' := Zout m)
    (hX := ?hX) (hin := ?hin) (hout := ?hout) (htail := htail m)
    (QY := fun c s => s.mem ((c.tc : Thread nD τ).loc main_arg0) = V m c main_arg0
      ∧ s.mem ((c.tc : Thread nD τ).loc main_v2) = (shapeCast S2x2048x12x64 (outArr m c) shapeCasts_S2x2048x768_S2x2048x12x64 : FVec F S2x2048x12x64 .f32))
    (hY := ?hY) (hQ := ?hQ)
  case hu =>
    iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hX =>
    intro c
    iintro ⟨HU, -, -, -, Hp, -⟩; imodintro
    isplitl [Hp]; · iexists _; iexact Hp
    iapply (Entails.of_eq (rest_eq m c))
    iexact HU
  case hin =>
    intro c
    show _ ⊢ Pipeline.ΦA spec0 c
    unfold Pipeline.ΦA
    iintro ⟨Hp, -, Hr⟩
    isplitl [Hr] <;> iassumption
  case hout =>
    intro c
    show Pipeline.ΦA spec0 c ⊢ _
    rw [Pipeline.ownSems0_none]; unfold Pipeline.ΦA
    iintro ⟨Hr, Hp⟩
    isplitl [Hp]; · iexact Hp
    isplitr; · iempintro
    iexact Hr
  case hY =>
    intro c s'
    unfold Zout
    iintro ⟨-, ⟨Ha, Hb⟩, HSI⟩
    imodintro
    icombine HSI Ha gives %ha
    icombine HSI Hb gives %hb
    isplitr
    · ipureintro; exact ⟨Buf.eq_of_forall_mem_univ ha, Buf.eq_of_forall_mem_univ hb⟩
    · iexact HSI
  case hQ =>
    exact fun s h c => ⟨(h c).2.2.2, (h c).2.2.1.trans (V_main_arg0 m c)⟩

/-- The frame: the program runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.Kernel.Hand

end
-- ==== Proof.KBody.lean ====
/-
  The kernel body of the banded attention call, run once on whole staging buffers: twelve heads, each reading the
  64-column slab of the five input blocks at its own column offset (queries, the previous and the current key block,
  the previous and the current value block) and storing one 512 x 64 slab of the output block. The output buffer
  after the body is the overlay of the twelve stored slabs, which tile the block's 768 columns.
-/
import proofs.«164029_g46823733461303_cont_8to1_c_288_3_alg».proof.Proof.Gen.KernelIdeal.Launch
import proofs.«164029_g46823733461303_cont_8to1_c_288_3_alg».proof.Proof.Gen.KernelIdeal.Skeleton
import proofs.«164029_g46823733461303_cont_8to1_c_288_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The twelve column slabs -/

abbrev r0 : Rect S1x512x768 := Rect.unit (s := S1x512x768) ![0, 0, 0] S1x512x64.size inb_S1x512x768_S1x512x64_0_0_0
abbrev r64 : Rect S1x512x768 := Rect.unit (s := S1x512x768) ![0, 0, 64] S1x512x64.size inb_S1x512x768_S1x512x64_0_0_64
abbrev r128 : Rect S1x512x768 := Rect.unit (s := S1x512x768) ![0, 0, 128] S1x512x64.size inb_S1x512x768_S1x512x64_0_0_128
abbrev r192 : Rect S1x512x768 := Rect.unit (s := S1x512x768) ![0, 0, 192] S1x512x64.size inb_S1x512x768_S1x512x64_0_0_192
abbrev r256 : Rect S1x512x768 := Rect.unit (s := S1x512x768) ![0, 0, 256] S1x512x64.size inb_S1x512x768_S1x512x64_0_0_256
abbrev r320 : Rect S1x512x768 := Rect.unit (s := S1x512x768) ![0, 0, 320] S1x512x64.size inb_S1x512x768_S1x512x64_0_0_320
abbrev r384 : Rect S1x512x768 := Rect.unit (s := S1x512x768) ![0, 0, 384] S1x512x64.size inb_S1x512x768_S1x512x64_0_0_384
abbrev r448 : Rect S1x512x768 := Rect.unit (s := S1x512x768) ![0, 0, 448] S1x512x64.size inb_S1x512x768_S1x512x64_0_0_448
abbrev r512 : Rect S1x512x768 := Rect.unit (s := S1x512x768) ![0, 0, 512] S1x512x64.size inb_S1x512x768_S1x512x64_0_0_512
abbrev r576 : Rect S1x512x768 := Rect.unit (s := S1x512x768) ![0, 0, 576] S1x512x64.size inb_S1x512x768_S1x512x64_0_0_576
abbrev r640 : Rect S1x512x768 := Rect.unit (s := S1x512x768) ![0, 0, 640] S1x512x64.size inb_S1x512x768_S1x512x64_0_0_640
abbrev r704 : Rect S1x512x768 := Rect.unit (s := S1x512x768) ![0, 0, 704] S1x512x64.size inb_S1x512x768_S1x512x64_0_0_704

/-! ## What each head stores -/

/-- What head 0's store writes: the body's arithmetic on the five blocks' column slabs at offset 0, composed from the skeleton's payloads. -/
def st0 (i : grid0.Coords) (x0 x1 x2 x3 x4 : Vec F S1x512x768 .f32) : Vec F S1x512x64 .f32 :=
  k0_pay6 (k0_pay2 i) (k0_pay3 (View.ld x3 r0) (View.ld x4 r0)) (k0_pay4 (View.ld x0 r0) (View.ld x1 r0) (View.ld x2 r0)) (k0_pay5 (F := F))

/-- What head 1's store writes: the body's arithmetic on the five blocks' column slabs at offset 64, composed from the skeleton's payloads. -/
def st1 (i : grid0.Coords) (x0 x1 x2 x3 x4 : Vec F S1x512x768 .f32) : Vec F S1x512x64 .f32 :=
  k0_pay10 (k0_pay7 (View.ld x3 r64) (View.ld x4 r64)) (k0_pay8 (k0_pay2 i) (View.ld x0 r64) (View.ld x1 r64) (View.ld x2 r64)) (k0_pay9 (k0_pay2 i) (View.ld x0 r64) (View.ld x1 r64) (View.ld x2 r64))

/-- What head 2's store writes: the body's arithmetic on the five blocks' column slabs at offset 128, composed from the skeleton's payloads. -/
def st2 (i : grid0.Coords) (x0 x1 x2 x3 x4 : Vec F S1x512x768 .f32) : Vec F S1x512x64 .f32 :=
  k0_pay14 (k0_pay11 (View.ld x3 r128) (View.ld x4 r128)) (k0_pay12 (k0_pay2 i) (View.ld x0 r128) (View.ld x1 r128) (View.ld x2 r128)) (k0_pay13 (k0_pay2 i) (View.ld x0 r128) (View.ld x1 r128) (View.ld x2 r128))

/-- What head 3's store writes: the body's arithmetic on the five blocks' column slabs at offset 192, composed from the skeleton's payloads. -/
def st3 (i : grid0.Coords) (x0 x1 x2 x3 x4 : Vec F S1x512x768 .f32) : Vec F S1x512x64 .f32 :=
  k0_pay16 (k0_pay15 (k0_pay2 i) (View.ld x0 r192) (View.ld x1 r192) (View.ld x2 r192) (View.ld x3 r192) (View.ld x4 r192))

/-- What head 4's store writes: the body's arithmetic on the five blocks' column slabs at offset 256, composed from the skeleton's payloads. -/
def st4 (i : grid0.Coords) (x0 x1 x2 x3 x4 : Vec F S1x512x768 .f32) : Vec F S1x512x64 .f32 :=
  k0_pay17 (k0_pay2 i) (View.ld x0 r256) (View.ld x1 r256) (View.ld x2 r256) (View.ld x3 r256) (View.ld x4 r256)

/-- What head 5's store writes: the body's arithmetic on the five blocks' column slabs at offset 320, composed from the skeleton's payloads. -/
def st5 (i : grid0.Coords) (x0 x1 x2 x3 x4 : Vec F S1x512x768 .f32) : Vec F S1x512x64 .f32 :=
  k0_pay18 (k0_pay2 i) (View.ld x0 r320) (View.ld x1 r320) (View.ld x2 r320) (View.ld x3 r320) (View.ld x4 r320)

/-- What head 6's store writes: the body's arithmetic on the five blocks' column slabs at offset 384, composed from the skeleton's payloads. -/
def st6 (i : grid0.Coords) (x0 x1 x2 x3 x4 : Vec F S1x512x768 .f32) : Vec F S1x512x64 .f32 :=
  k0_pay19 (k0_pay2 i) (View.ld x0 r384) (View.ld x1 r384) (View.ld x2 r384) (View.ld x3 r384) (View.ld x4 r384)

/-- What head 7's store writes: the body's arithmetic on the five blocks' column slabs at offset 448, composed from the skeleton's payloads. -/
def st7 (i : grid0.Coords) (x0 x1 x2 x3 x4 : Vec F S1x512x768 .f32) : Vec F S1x512x64 .f32 :=
  k0_pay21 (k0_pay2 i) (k0_pay20 (View.ld x0 r448)) (View.ld x1 r448) (View.ld x2 r448) (View.ld x3 r448) (View.ld x4 r448)

/-- What head 8's store writes: the body's arithmetic on the five blocks' column slabs at offset 512, composed from the skeleton's payloads. -/
def st8 (i : grid0.Coords) (x0 x1 x2 x3 x4 : Vec F S1x512x768 .f32) : Vec F S1x512x64 .f32 :=
  k0_pay24 (k0_pay2 i) (k0_pay22 (View.ld x0 r512)) (k0_pay23 (View.ld x1 r512)) (View.ld x2 r512) (View.ld x3 r512) (View.ld x4 r512)

/-- What head 9's store writes: the body's arithmetic on the five blocks' column slabs at offset 576, composed from the skeleton's payloads. -/
def st9 (i : grid0.Coords) (x0 x1 x2 x3 x4 : Vec F S1x512x768 .f32) : Vec F S1x512x64 .f32 :=
  k0_pay27 (k0_pay2 i) (k0_pay25 (View.ld x0 r576)) (k0_pay26 (View.ld x1 r576) (View.ld x2 r576)) (View.ld x3 r576) (View.ld x4 r576)

/-- What head 10's store writes: the body's arithmetic on the five blocks' column slabs at offset 640, composed from the skeleton's payloads. -/
def st10 (i : grid0.Coords) (x0 x1 x2 x3 x4 : Vec F S1x512x768 .f32) : Vec F S1x512x64 .f32 :=
  k0_pay31 (k0_pay2 i) (k0_pay28 (View.ld x0 r640)) (k0_pay29 (View.ld x1 r640) (View.ld x2 r640)) (k0_pay30 (View.ld x3 r640)) (View.ld x4 r640)

/-- What head 11's store writes: the body's arithmetic on the five blocks' column slabs at offset 704, composed from the skeleton's payloads. -/
def st11 (i : grid0.Coords) (x0 x1 x2 x3 x4 : Vec F S1x512x768 .f32) : Vec F S1x512x64 .f32 :=
  k0_pay1 (k0_pay2 i) (k0_pay32 (View.ld x0 r704)) (k0_pay33 (View.ld x1 r704) (View.ld x2 r704)) (k0_pay34 (View.ld x3 r704)) (k0_pay35 (View.ld x4 r704))

/-- The output block after the body: the twelve stored slabs, last first. -/
def out0_5 (i : grid0.Coords) (x0 x1 x2 x3 x4 : Vec F S1x512x768 .f32) : Vec F S1x512x768 .f32 :=
  View.canon [
    ⟨r704, st11 i x0 x1 x2 x3 x4⟩,
    ⟨r640, st10 i x0 x1 x2 x3 x4⟩,
    ⟨r576, st9 i x0 x1 x2 x3 x4⟩,
    ⟨r512, st8 i x0 x1 x2 x3 x4⟩,
    ⟨r448, st7 i x0 x1 x2 x3 x4⟩,
    ⟨r384, st6 i x0 x1 x2 x3 x4⟩,
    ⟨r320, st5 i x0 x1 x2 x3 x4⟩,
    ⟨r256, st4 i x0 x1 x2 x3 x4⟩,
    ⟨r192, st3 i x0 x1 x2 x3 x4⟩,
    ⟨r128, st2 i x0 x1 x2 x3 x4⟩,
    ⟨r64, st1 i x0 x1 x2 x3 x4⟩,
    ⟨r0, st0 i x0 x1 x2 x3 x4⟩]

/-- The twelve slabs tile the block, so they cover it. -/
theorem cover0_5 (p0 p1 p2 p3 p4 p5 p6 p7 p8 p9 p10 p11 : Vec F S1x512x64 .f32) (y : S1x512x768.Idx) :
    ∃ pc ∈ ([⟨r704, p11⟩, ⟨r640, p10⟩, ⟨r576, p9⟩, ⟨r512, p8⟩, ⟨r448, p7⟩, ⟨r384, p6⟩, ⟨r320, p5⟩, ⟨r256, p4⟩, ⟨r192, p3⟩, ⟨r128, p2⟩, ⟨r64, p1⟩, ⟨r0, p0⟩] : List (View.Piece (Elt F) S1x512x768 .f32)), y ∈ pc.1.set :=
  View.cover_of_tiled [⟨r704, p11⟩, ⟨r640, p10⟩, ⟨r576, p9⟩, ⟨r512, p8⟩, ⟨r448, p7⟩, ⟨r384, p6⟩, ⟨r320, p5⟩, ⟨r256, p4⟩, ⟨r192, p3⟩, ⟨r128, p2⟩, ⟨r64, p1⟩, ⟨r0, p0⟩] S1x512x64.size (by rfl) y

/-! ## The body's triple -/

/-- The body on whole staging memrefs: the five inputs at contents `x0 … x4` (queries, previous keys, keys, previous
    values, values), the output at anything; it leaves the inputs as they were and the output at `out0_5`. -/
theorem sound_kernel (c : Dev nD) (E : Set ℕ) (i : grid0.Coords)
    (arg2 : Memref sig .tc .vmem S1x512x768 .f32) (harg2 : arg2.IsWhole) (arg3 : Memref sig .tc .vmem S1x512x768 .f32) (harg3 : arg3.IsWhole)
    (arg4 : Memref sig .tc .vmem S1x512x768 .f32) (harg4 : arg4.IsWhole) (arg5 : Memref sig .tc .vmem S1x512x768 .f32) (harg5 : arg5.IsWhole)
    (arg6 : Memref sig .tc .vmem S1x512x768 .f32) (harg6 : arg6.IsWhole) (arg7 : Memref sig .tc .vmem S1x512x768 .f32) (harg7 : arg7.IsWhole)
    (x0 x1 x2 x3 x4 : Vec F S1x512x768 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out0_5 i x0 x1 x2 x3 x4)) -∗ K ⟨⟩))
      ⊢ wp frame (wpE (defs₀ (F := F)) Variants.none c none) E (cc0__attn_kernel i arg2 harg2 arg3 harg3 arg4 harg4 arg5 harg5 arg6 harg6 arg7 harg7) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _ _ _ _ _ _ _ _ _ _ _ _)

end Cert.KernelIdeal.Hand

end
-- ==== Proof.KRun.lean ====
/-
  The run of the banded attention program: one reshape of the packed input into [2, 2048, 2304], the kernel
  region over the 2 x 4 grid, and one reshape of the [2, 2048, 768] result into [2, 2048, 12, 64]. The five input
  windows (queries; previous and current key block; previous and current value block) all stage blocks of the
  ONE reshaped array, so that array is lent to them in five shares; the output window owns its array whole.
-/
import proofs.«164029_g46823733461303_cont_8to1_c_288_3_alg».proof.Proof.KBody
import Idealize.ShloMosaic.Lib.Pipeline.FrameSuffix
import Mathlib.Logic.Function.Basic
import Mathlib.Data.Finset.Insert

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffers when the region is entered: the launch contents after the one reshape. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

/-- @main is the reshape, the region, the reshape. -/
theorem hmain (𝒱₀ : Variants) : Pipeline.HMainK (Ix := Unit) (Name := ℕ) (U := UR sig nD τ) (Lvl := ℕ) cfgs 0 defs₀ 𝒱₀ m (main (F := F)) (V m)
    (fun _ => Pipeline.chain ([hostOps1].map StableHlo.seq)) :=
  Pipeline.hmain_around cfgs 0 defs₀ 𝒱₀ m main [hostOps0] [hostOps1] (by simp only [List.Forall]; exact hostOps0_sub)
    (by simp only [List.Forall]; repeat' constructor) (fun c => (main_chain c).trans rfl)

/-- The packed input reaches the region as launched. -/
theorem V_main_arg0 (c : Dev nD) : V m c main_arg0 = m ((c : Thread nD τ).loc main_arg0) := by
  dsimp only [V, V0]; simp only [hostOps0, List.flatten_cons, List.flatten_nil, List.append_nil]; after_results

/-- The array the windows stage is the packed input re-laid as [2, 2048, 2304]. -/
theorem V_main_v0 (c : Dev nD) :
    (V m c main_v0 : FVec F S2x2048x2304 .f32) = shapeCast S2x2048x2304 (m ((c : Thread nD τ).loc main_arg0) : FVec F S2x2048x3x12x64 .f32) shapeCasts_S2x2048x3x12x64_S2x2048x2304 := by
  dsimp only [V, V0]; simp only [hostOps0, List.flatten_cons, List.flatten_nil, List.append_nil]; after_results; rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data on core `c`: the arrays as the region finds them; after the body each input's buffer at its block
    and the output's at `out0_5` of the five input blocks; the class invariant; nothing owed; the shared array lent
    in five shares, one per input window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (grid0.coords t) (iblk m c 0 t) (iblk m c 1 t) (iblk m c 2 t) (iblk m c 3 t) (iblk m c 4 t)
  Φ _ := Pipeline.ΦA spec0 c
  q w := match w with
    | ⟨0, _⟩ => fullShare.left
    | ⟨1, _⟩ => fullShare.right.left
    | ⟨2, _⟩ => fullShare.right.right.left
    | ⟨3, _⟩ => fullShare.right.right.right.left
    | ⟨4, _⟩ => fullShare.right.right.right.right
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = out0_5 (grid0.coords t) (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`: the invariant, the owed tokens, and the six current staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the five inputs' buffers hold their blocks, so the body's triple applies; the invariant
    and the owed tokens pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

/-- The output array after the last write-back. -/
def outArr (c : Dev nD) : FVec F S2x2048x768 .f32 := (dats m 0 c).arrAt 5 cfg0.N

/-! ## The launch -/

/-- What bypasses the region on core `c`, as the region is entered: the packed input and the result buffer. -/
def Zin (c : Dev nD) : sProp 𝕄 :=
  iprop((((c : Thread nD τ).loc main_arg0) ↦{fullShare} V m c main_arg0) ∗ (((c : Thread nD τ).loc main_v2) ↦{fullShare} V m c main_v2))

/-- and as @main ends: the packed input untouched, the result buffer at the output array re-laid as [2, 2048, 12, 64]. -/
def Zout (c : Dev nD) : sProp 𝕄 :=
  iprop((((c : Thread nD τ).loc main_arg0) ↦{fullShare} V m c main_arg0)
    ∗ (((c : Thread nD τ).loc main_v2) ↦{fullShare} (shapeCast S2x2048x12x64 (outArr m c) shapeCasts_S2x2048x768_S2x2048x12x64 : FVec F S2x2048x12x64 .f32)))

/-- What bypasses the region, enumerated: the packed input and the result buffer. -/
theorem rest_eq (c : Dev nD) :
    (Pipeline.unscopedRestP (Ix := Unit) (Name := ℕ) (U := UR sig nD τ) (Lvl := ℕ) Pipeline.Prefetch.none spec0 c (V m c) : sProp 𝕄) = Zin m c := by
  rw [Pipeline.unscopedRestP_none, unscopedRest0_eq]; rfl

/-- The share each window holds its array at: the input windows the five parts of the reshaped input's full share, the
    output window its array whole. -/
theorem share0_0 (c : Dev nD) : (dats m 0 c).share 0 = fullShare.left := rfl
theorem share0_1 (c : Dev nD) : (dats m 0 c).share 1 = fullShare.right.left := rfl
theorem share0_2 (c : Dev nD) : (dats m 0 c).share 2 = fullShare.right.right.left := rfl
theorem share0_3 (c : Dev nD) : (dats m 0 c).share 3 = fullShare.right.right.right.left := rfl
theorem share0_4 (c : Dev nD) : (dats m 0 c).share 4 = fullShare.right.right.right.right := rfl
theorem share0_5 (c : Dev nD) : (dats m 0 c).share 5 = fullShare := rfl

/-- The two buffers behind the six windows, each whole at the full share, make the pipeline's arrays at entry: the
    reshaped input's full share is halved four times, one share per input window; the output window takes its array whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have himg : (Finset.univ.image (Pipeline.arrRef spec0) : Finset (Ref sig .tc)) = {main_v0, main_v1} := by decide
  have key : ∀ w : Fin 6, (((cfg0.win w).arr.view.loc (c.tc : Thread nD τ)) ↦[(cfg0.win w).arr.view.set]{(dats m 0 c).share w} (dats m 0 c).arrAt w 0 : sProp 𝕄)
      = (((c.tc : Thread nD τ).loc (Pipeline.arrRef spec0 w)) ↦{(dats m 0 c).share w} V m c (Pipeline.arrRef spec0 w)) := fun w => by
    rw [(arr_whole0 w).set_eq_univ]; rfl
  unfold Pipeline.arrBufs Dat.arrays
  rw [himg, bigSep_insert (by decide), bigSep_singleton, bigSep_W0, key 0, key 1, key 2, key 3, key 4, key 5,
    share0_0, share0_1, share0_2, share0_3, share0_4, share0_5]
  refine (show iprop((((c.tc : Thread nD τ).loc main_v0) ↦{fullShare} V m c main_v0) ∗ (((c.tc : Thread nD τ).loc main_v1) ↦{fullShare} V m c main_v1)) ⊢ _ from ?_)
  iintro ⟨H0, H1⟩
  ihave H0 := (pointsTo_share (PosShare.mem_left_op_right fullShare)).1 $$ H0
  icases H0 with ⟨Ha, H0⟩
  ihave H0 := (pointsTo_share (PosShare.mem_left_op_right fullShare.right)).1 $$ H0
  icases H0 with ⟨Hb, H0⟩
  ihave H0 := (pointsTo_share (PosShare.mem_left_op_right fullShare.right.right)).1 $$ H0
  icases H0 with ⟨Hc, H0⟩
  ihave H0 := (pointsTo_share (PosShare.mem_left_op_right fullShare.right.right.right)).1 $$ H0
  icases H0 with ⟨Hd, He⟩
  isplitl [Ha]; · iexact Ha
  isplitl [Hb]; · iexact Hb
  isplitl [Hc]; · iexact Hc
  isplitl [Hd]; · iexact Hd
  isplitl [He]; · iexact He
  iexact H1

/-- The two buffers the last reshape touches: the output array and the result buffer. -/
abbrev tailSet : Finset (DevRef τ sig) := {Proc.devRef .tc main_v1, Proc.devRef .tc main_v2}

/-- Core `c`'s buffers as the region leaves them: the output array after the last write-back, every other buffer as entered. -/
def Wout (c : Dev nD) : Valuation τ sig (Elt F) :=
  Function.update (V0 m c) (Proc.devRef .tc main_v1) (outArr m c)

theorem Wout_v1 (c : Dev nD) : Wout m c (Proc.devRef .tc main_v1) = outArr m c :=
  Function.update_self _ _ _
theorem Wout_v2 (c : Dev nD) : Wout m c (Proc.devRef .tc main_v2) = V m c main_v2 :=
  Function.update_of_ne (StableHlo.devRef_ne_of_ne (by decide)) _ _

/-- The two buffers held whole at a valuation, one by one. -/
theorem held_tail (c : Dev nD) (W : Valuation τ sig (Elt F)) :
    (StableHlo.held (Ix := Unit) (Name := ℕ) (U := UR sig nD τ) (Lvl := ℕ) (c.tc : Thread nD τ) tailSet W : sProp 𝕄)
      = iprop((((c.tc : Thread nD τ).loc main_v1) ↦{fullShare} W (Proc.devRef .tc main_v1))
          ∗ (((c.tc : Thread nD τ).loc main_v2) ↦{fullShare} W (Proc.devRef .tc main_v2))) := by
  unfold StableHlo.held tailSet
  rw [bigSep_insert (by rw [Finset.mem_singleton]; exact StableHlo.devRef_ne_of_ne (by decide)), bigSep_singleton]
  rfl

/-- The last reshape leaves the output array as it found it -/
theorem after_v1 (c : Dev nD) : StableHlo.after (List.flatten [hostOps1]) (Wout m c) (Proc.devRef .tc main_v1) = outArr m c := by
  simp only [hostOps1, List.flatten_cons, List.flatten_nil, List.append_nil]; after_results; exact Wout_v1 m c
/-- and the result buffer at the output array re-laid as [2, 2048, 12, 64]. -/
theorem after_v2 (c : Dev nD) : (StableHlo.after (List.flatten [hostOps1]) (Wout m c) (Proc.devRef .tc main_v2) : FVec F S2x2048x12x64 .f32)
    = shapeCast S2x2048x12x64 (outArr m c) shapeCasts_S2x2048x768_S2x2048x12x64 := by
  simp only [hostOps1, List.flatten_cons, List.flatten_nil, List.append_nil]; after_results; rw [Wout_v1]; rfl

/-- After the region: the last reshape reads the output array and writes the result buffer; the arrays come back as they were. -/
theorem htail (c : Dev nD) (Q' : PUnit → sProp 𝕄) :
    iprop((iprop((dats m 0 c).arrays ((dats m 0 c).arrAt · cfg0.N) ∗ Zout m c) -∗ Q' ⟨⟩)
        ∗ boundary (c.tc : Thread nD τ) ∗ (dats m 0 c).arrays ((dats m 0 c).arrAt · cfg0.N) ∗ Zin m c)
      ⊢ wp frame (wpE (Pipeline.defs (fun q => (cfgs q).toPCfg (Val := Elt F)) defs₀) (Variants.lift Variants.none) (c.tc : Thread nD τ) none) Set.univ
          (Pipeline.chain ([hostOps1].map StableHlo.seq)) Q' := by
  have key5 : (((cfg0.win 5).arr.view.loc (c.tc : Thread nD τ)) ↦[(cfg0.win 5).arr.view.set]{(dats m 0 c).share 5} (dats m 0 c).arrAt 5 cfg0.N : sProp 𝕄)
      = (((c.tc : Thread nD τ).loc main_v1) ↦{fullShare} outArr m c) := by
    rw [(arr_whole0 5).set_eq_univ, share0_5]; rfl
  have hS : ∀ ops ∈ ([hostOps1] : List (List (HloOp τ sig (Elt F)))), ∀ op ∈ ops, op.bufs ⊆ tailSet := by
    intro ops hops op hop
    rw [List.mem_singleton] at hops; subst hops
    rw [List.mem_singleton] at hop; subst hop
    exact subset_refl _
  have hf : ∀ ops ∈ ([hostOps1] : List (List (HloOp τ sig (Elt F)))), ∀ op ∈ ops, op.fresh = ∅ := by
    intro ops hops op hop
    rw [List.mem_singleton] at hops; subst hops
    rw [List.mem_singleton] at hop; subst hop
    rfl
  unfold Dat.arrays Zin Zout
  rw [bigSep_W0, key5, ← List.append_nil ([hostOps1].map StableHlo.seq)]
  iintro ⟨Hk, Hb, ⟨A0, A1, A2, A3, A4, A5⟩, Harg, Hv2⟩
  iapply (Pipeline.wp_seqs_then (fun q => (cfgs q).toPCfg (Val := Elt F)) defs₀ Variants.none c tailSet [] [hostOps1] hS hf (Wout m c)) $$ [Hb A5 Hv2]
  · isplitl [Hb]; · iexact Hb
    rw [held_tail, Wout_v1, Wout_v2]
    isplitl [A5]; · iexact A5
    iexact Hv2
  iintro Hh
  rw [Pipeline.chain_nil, wp_pure, held_tail, after_v1, after_v2]
  imodintro
  iapply Hk
  icases Hh with ⟨-, A5, Hv2⟩
  isplitr [Harg Hv2]
  · isplitl [A0]; · iexact A0
    isplitl [A1]; · iexact A1
    isplitl [A2]; · iexact A2
    isplitl [A3]; · iexact A3
    isplitl [A4]; · iexact A4
    iexact A5
  · isplitl [Harg]; · iexact Harg
    iexact Hv2

set_option backward.isDefEq.respectTransparency.types false in
/-- Every weakly fair execution of @main terminates; the result is the output array re-laid as
    [2, 2048, 12, 64], and the packed input ends as launched. -/
theorem run_main : θ_run defs (onTc (τ := τ) (main (F := F))) ⟨m, fun _ => 0, ρ⟩ (fun r => ∀ c : Dev nD,
      r.2.mem ((c.tc : Thread nD τ).loc main_v2)
        = (shapeCast S2x2048x12x64 (outArr m c) shapeCasts_S2x2048x768_S2x2048x12x64 : FVec F S2x2048x12x64 .f32)
      ∧ r.2.mem ((c.tc : Thread nD τ).loc main_arg0) = m ((c.tc : Thread nD τ).loc main_arg0)) := by
  classical
  refine Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain ([hostOps1].map StableHlo.seq)) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := ?hu) (V := V m) (hmain := hmain m Variants.none) (hsplit := hsplit m) (hpf := fun _ k => k.elim0)
    (X := fun c => iprop(∃ r, prngReg c r)) (Y := fun c => iprop(∃ r, prngReg c r)) (Z := Zin m) (Z' := Zout m)
    (hX := ?hX) (hin := ?hin) (hout := ?hout) (htail := htail m)
    (QY := fun c s => s.mem ((c.tc : Thread nD τ).loc main_arg0) = V m c main_arg0
      ∧ s.mem ((c.tc : Thread nD τ).loc main_v2) = (shapeCast S2x2048x12x64 (outArr m c) shapeCasts_S2x2048x768_S2x2048x12x64 : FVec F S2x2048x12x64 .f32))
    (hY := ?hY) (hQ := ?hQ)
  case hu =>
    iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hX =>
    intro c
    iintro ⟨HU, -, -, -, Hp, -⟩; imodintro
    isplitl [Hp]; · iexists _; iexact Hp
    iapply (Entails.of_eq (rest_eq m c))
    iexact HU
  case hin =>
    intro c
    show _ ⊢ Pipeline.ΦA spec0 c
    unfold Pipeline.ΦA
    iintro ⟨Hp, -, Hr⟩
    isplitl [Hr] <;> iassumption
  case hout =>
    intro c
    show Pipeline.ΦA spec0 c ⊢ _
    rw [Pipeline.ownSems0_none]; unfold Pipeline.ΦA
    iintro ⟨Hr, Hp⟩
    isplitl [Hp]; · iexact Hp
    isplitr; · iempintro
    iexact Hr
  case hY =>
    intro c s'
    unfold Zout
    iintro ⟨-, ⟨Ha, Hb⟩, HSI⟩
    imodintro
    icombine HSI Ha gives %ha
    icombine HSI Hb gives %hb
    isplitr
    · ipureintro; exact ⟨Buf.eq_of_forall_mem_univ ha, Buf.eq_of_forall_mem_univ hb⟩
    · iexact HSI
  case hQ =>
    exact fun s h c => ⟨(h c).2.2.2, (h c).2.2.1.trans (V_main_arg0 m c)⟩

/-- The frame: the program runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.KernelIdeal.Hand

end
-- ==== Proof.Spec.lean ====
/-
  The two arrangements of banded causal attention as functions of the packed input, index by index on the
  extended reals.

  The input is qkv[b, l, s, h, e] (s = 0 queries, 1 keys, 2 values). For a query row l of batch b and head h the
  score of key row k is 1/8 times the inner product of the query and the key over e where the row is visible
  (k ≤ l ≤ k + 512), the bottom element elsewhere; the result is the softmax-weighted sum of the value rows.

  One arrangement sums over all 2048 key rows, scales the inner product, and divides each weight by the total
  before weighting the values. The other works in blocks of 512 query rows: block i sees only the band of 1024
  key rows made of block i-1 (block 0 again when i = 0, wholly hidden then) and block i, scales the query before the
  inner product, and divides the weighted sum by the total once.
-/
import Idealize.ShloMosaic.PureOps.Ideal
import Idealize.ShloMosaic.Lib.ValueIdx

noncomputable section

open scoped BigOperators

namespace Cert.Spec

open Idealize.ShloMosaic Idealize.ShloMosaic.ValueIdx

/-- The packed input's index space, [2, 2048, 3, 12, 64]. -/
abbrev SArg : Shape := ⟨5, ![2, 2048, 3, 12, 64]⟩
/-- The result's index space, [2, 2048, 12, 64]. -/
abbrev SRes : Shape := ⟨4, ![2, 2048, 12, 64]⟩

/-- The scale 1/sqrt(64) = 1/8. -/
def eighth : EReal := ((1 / 8 : ℝ) : EReal)

/-- The largest score of a row (the bottom element if there is none). -/
def rowMax {n : ℕ} (s : Fin n → EReal) : EReal := (Finset.univ : Finset (Fin n)).fold max ⊥ s

/-- The unnormalised softmax weight of entry j. -/
def wt {n : ℕ} (s : Fin n → EReal) (j : Fin n) : EReal := Ideal.exp (s j - rowMax s)

/-- Softmax-weighted sum, dividing once: (∑ w_j v_j) / ∑ w_j. -/
def avgK {n : ℕ} (s v : Fin n → EReal) : EReal :=
  Ideal.div (∑ j, wt s j * v j) (∑ j, wt s j)

/-- Softmax-weighted sum, dividing each weight: ∑ (w_j / ∑ w) v_j. -/
def avgR {n : ℕ} (s v : Fin n → EReal) : EReal :=
  ∑ j, Ideal.div (wt s j) (∑ j', wt s j') * v j

/-- Key row k is visible from query row l: causal, and at most 512 rows back. -/
def visR (l k : Fin 2048) : Prop := k.val ≤ l.val ∧ l.val ≤ k.val + 512

instance (l k : Fin 2048) : Decidable (visR l k) := by unfold visR; infer_instance

/-- The full-row arrangement at (b, l, h, e). -/
def refAt (X : SArg.Idx → EReal) (b : Fin 2) (l : Fin 2048) (h : Fin 12) (e : Fin 64) : EReal :=
  avgR (fun k : Fin 2048 => if visR l k then (∑ e' : Fin 64, X (ix5 b l (0 : Fin 3) h e') * X (ix5 b k (1 : Fin 3) h e')) * eighth else ⊥)
    (fun k : Fin 2048 => X (ix5 b k (2 : Fin 3) h e))

/-- The full-row arrangement as a function of the result index. -/
def refOut (X : SArg.Idx → EReal) : SRes.Idx → EReal := fun o => refAt X (o 0) (o 1) (o 2) (o 3)

/-- The key/value row that column j of query block i's band reads: block i-1 (block 0 when i = 0) for j < 512,
    block i for 512 ≤ j. -/
def bandRow (i : Fin 4) (j : Fin 1024) : Fin 2048 :=
  ⟨if j.val < 512 then (i.val - 1) * 512 + j.val else i.val * 512 + (j.val - 512), by
    have := i.isLt; have := j.isLt; split <;> omega⟩

/-- Column j of the band is visible from row r of query block i: the band column stands for key row
    (i-1)·512 + j, which must be non-negative, at most the query row i·512 + r, and at most 512 rows back. -/
def visK (i : Fin 4) (r : Fin 512) (j : Fin 1024) : Prop :=
  j.val ≤ r.val + 512 ∧ r.val ≤ j.val ∧ (1 ≤ i.val ∨ 512 ≤ j.val)

instance (i : Fin 4) (r : Fin 512) (j : Fin 1024) : Decidable (visK i r j) := by unfold visK; infer_instance

/-- The banded arrangement at (b, block i, row r of the block, h, e). -/
def kerAt (X : SArg.Idx → EReal) (b : Fin 2) (i : Fin 4) (r : Fin 512) (h : Fin 12) (e : Fin 64) : EReal :=
  avgK (fun j : Fin 1024 => if visK i r j then
      ∑ e' : Fin 64, (X (ix5 b (⟨i.val * 512 + r.val, by have := i.isLt; have := r.isLt; omega⟩ : Fin 2048) (0 : Fin 3) h e') * eighth)
        * X (ix5 b (bandRow i j) (1 : Fin 3) h e') else ⊥)
    (fun j : Fin 1024 => X (ix5 b (bandRow i j) (2 : Fin 3) h e))

/-- The banded arrangement as a function of the result index: row l is row l % 512 of block l / 512. -/
def kerOut (X : SArg.Idx → EReal) : SRes.Idx → EReal := fun o =>
  kerAt X (o 0) (⟨(o 1).val / 512, by have h : (o 1).val < 2048 := (o 1).isLt; omega⟩ : Fin 4) (⟨(o 1).val % 512, by omega⟩ : Fin 512) (o 2) (o 3)

end Cert.Spec

end
-- ==== Proof.KHeadA.lean ====
/-
  What one attention head's operations are at an index, each stated once over variables: a vector cast to a column and
  a column broadcast along its rows; the two contractions (scores: row r of the left operand against row j of the
  right one over 64 entries; output: row r of the weights against column e of the values over the band's 1024
  columns); two 512-row slabs stacked; a row's maximum and sum; the two constants 1/8 and minus infinity; and the band
  mask, whose three signed word comparisons are the integers' because no word overflows.
-/
import proofs.«164029_g46823733461303_cont_8to1_c_288_3_alg».proof.Proof.Gen.KernelIdeal.Skeleton
import proofs.«164029_g46823733461303_cont_8to1_c_288_3_alg».proof.Proof.Spec
import Idealize.ShloMosaic.Lib.Pipeline.Value
import Idealize.ShloMosaic.Lib.ValueIdx
import Idealize.ShloMosaic.Lib.ValueLayout
import Idealize.ShloMosaic.Lib.WordArith
import Idealize.ShloMosaic.PureOps.Ideal.Laws

set_option maxRecDepth 16384

noncomputable section

open scoped BigOperators

namespace Cert.KernelIdeal.HeadValue

open Cert.KernelIdeal Cert.KernelIdeal.Gen
open Idealize.ShloMosaic Idealize.ShloMosaic.TcCoe Idealize.ShloMosaic.ValueIdx

/-! ## A column vector: a vector cast to one column, and one column broadcast along its rows -/

/-- A vector cast to a one-column matrix reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast to b columns reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two contractions read at an index -/

theorem lhs_scores_0 (i : S512x1024.Idx) (q : dot_S512x64_S1024x64_S512x1024_1_1_0_0_n_n.contr.Idx) :
    (dot_S512x64_S1024x64_S512x1024_1_1_0_0_n_n.lhsIdx i q 0).val = (i 0).val := by
  unfold DotDims.lhsIdx
  rw [dif_neg (show ¬(0 : Fin S512x64.rank) ∈ dot_S512x64_S1024x64_S512x1024_1_1_0_0_n_n.lhsBatch by decide), dif_pos (show (0 : Fin S512x64.rank) ∈ dot_S512x64_S1024x64_S512x1024_1_1_0_0_n_n.lhsNonContracting by decide)]
  rfl
theorem lhs_scores_1 (i : S512x1024.Idx) (q : dot_S512x64_S1024x64_S512x1024_1_1_0_0_n_n.contr.Idx) :
    (dot_S512x64_S1024x64_S512x1024_1_1_0_0_n_n.lhsIdx i q 1).val = (q ⟨0, by decide⟩).val :=
  dot_S512x64_S1024x64_S512x1024_1_1_0_0_n_n.lhsIdx_val_of_single rfl i q
theorem rhs_scores_0 (i : S512x1024.Idx) (q : dot_S512x64_S1024x64_S512x1024_1_1_0_0_n_n.contr.Idx) :
    (dot_S512x64_S1024x64_S512x1024_1_1_0_0_n_n.rhsIdx i q 0).val = (i 1).val := by
  unfold DotDims.rhsIdx
  rw [dif_neg (show ¬(0 : Fin S1024x64.rank) ∈ dot_S512x64_S1024x64_S512x1024_1_1_0_0_n_n.rhsBatch by decide), dif_pos (show (0 : Fin S1024x64.rank) ∈ dot_S512x64_S1024x64_S512x1024_1_1_0_0_n_n.rhsNonContracting by decide)]
  rfl
theorem rhs_scores_1 (i : S512x1024.Idx) (q : dot_S512x64_S1024x64_S512x1024_1_1_0_0_n_n.contr.Idx) :
    (dot_S512x64_S1024x64_S512x1024_1_1_0_0_n_n.rhsIdx i q 1).val = (q ⟨0, by decide⟩).val :=
  dot_S512x64_S1024x64_S512x1024_1_1_0_0_n_n.rhsIdx_val_of_single rfl i q

/-- The scores' contraction into the zero accumulator, at (r, j): the inner product of row r of the left operand with
    row j of the right one. -/
theorem scores_apply (l : FVec Ideal S512x64 .f32) (k : FVec Ideal S1024x64 .f32) (r : Fin 512) (j : Fin 1024) :
    matmul dot_S512x64_S1024x64_S512x1024_1_1_0_0_n_n none l k (constant (F := Ideal) S512x1024 .f32 0x00000000#32) (ix2 r j)
      = ∑ e : Fin 64, l (ix2 r e) * k (ix2 j e) := by
  simp only [matmul]
  rw [Ideal.matmul_constant_zero_apply, ← Equiv.sum_comp (ValueIdx.contrEquiv1 dot_S512x64_S1024x64_S512x1024_1_1_0_0_n_n 64 rfl rfl).symm]
  refine Finset.sum_congr rfl fun e _ => ?_
  have hk := ValueIdx.contrEquiv1_symm_val dot_S512x64_S1024x64_S512x1024_1_1_0_0_n_n 64 rfl rfl e
  have el : dot_S512x64_S1024x64_S512x1024_1_1_0_0_n_n.lhsIdx (ix2 r j) ((ValueIdx.contrEquiv1 dot_S512x64_S1024x64_S512x1024_1_1_0_0_n_n 64 rfl rfl).symm e) = ix2 r e := funext fun a => Fin.ext (by
    match a with
    | ⟨0, _⟩ => exact lhs_scores_0 _ _
    | ⟨1, _⟩ => exact (lhs_scores_1 _ _).trans hk)
  have er : dot_S512x64_S1024x64_S512x1024_1_1_0_0_n_n.rhsIdx (ix2 r j) ((ValueIdx.contrEquiv1 dot_S512x64_S1024x64_S512x1024_1_1_0_0_n_n 64 rfl rfl).symm e) = ix2 j e := funext fun a => Fin.ext (by
    match a with
    | ⟨0, _⟩ => exact rhs_scores_0 _ _
    | ⟨1, _⟩ => exact (rhs_scores_1 _ _).trans hk)
  rw [el, er]

theorem lhs_out_0 (i : S512x64.Idx) (q : dot_S512x1024_S1024x64_S512x64_1_0_0_1_n_n.contr.Idx) :
    (dot_S512x1024_S1024x64_S512x64_1_0_0_1_n_n.lhsIdx i q 0).val = (i 0).val := by
  unfold DotDims.lhsIdx
  rw [dif_neg (show ¬(0 : Fin S512x1024.rank) ∈ dot_S512x1024_S1024x64_S512x64_1_0_0_1_n_n.lhsBatch by decide), dif_pos (show (0 : Fin S512x1024.rank) ∈ dot_S512x1024_S1024x64_S512x64_1_0_0_1_n_n.lhsNonContracting by decide)]
  rfl
theorem lhs_out_1 (i : S512x64.Idx) (q : dot_S512x1024_S1024x64_S512x64_1_0_0_1_n_n.contr.Idx) :
    (dot_S512x1024_S1024x64_S512x64_1_0_0_1_n_n.lhsIdx i q 1).val = (q ⟨0, by decide⟩).val :=
  dot_S512x1024_S1024x64_S512x64_1_0_0_1_n_n.lhsIdx_val_of_single rfl i q
theorem rhs_out_0 (i : S512x64.Idx) (q : dot_S512x1024_S1024x64_S512x64_1_0_0_1_n_n.contr.Idx) :
    (dot_S512x1024_S1024x64_S512x64_1_0_0_1_n_n.rhsIdx i q 0).val = (q ⟨0, by decide⟩).val :=
  dot_S512x1024_S1024x64_S512x64_1_0_0_1_n_n.rhsIdx_val_of_single rfl i q
theorem rhs_out_1 (i : S512x64.Idx) (q : dot_S512x1024_S1024x64_S512x64_1_0_0_1_n_n.contr.Idx) :
    (dot_S512x1024_S1024x64_S512x64_1_0_0_1_n_n.rhsIdx i q 1).val = (i 1).val := by
  unfold DotDims.rhsIdx
  rw [dif_neg (show ¬(1 : Fin S1024x64.rank) ∈ dot_S512x1024_S1024x64_S512x64_1_0_0_1_n_n.rhsBatch by decide), dif_pos (show (1 : Fin S1024x64.rank) ∈ dot_S512x1024_S1024x64_S512x64_1_0_0_1_n_n.rhsNonContracting by decide)]
  rfl

/-- The weighted sum's contraction into the zero accumulator, at (r, e): the sum over the band's columns j of the
    weight at (r, j) times the value at (j, e). -/
theorem out_apply (p : FVec Ideal S512x1024 .f32) (v : FVec Ideal S1024x64 .f32) (r : Fin 512) (e : Fin 64) :
    matmul dot_S512x1024_S1024x64_S512x64_1_0_0_1_n_n none p v (constant (F := Ideal) S512x64 .f32 0x00000000#32) (ix2 r e)
      = ∑ j : Fin 1024, p (ix2 r j) * v (ix2 j e) := by
  simp only [matmul]
  rw [Ideal.matmul_constant_zero_apply, ← Equiv.sum_comp (ValueIdx.contrEquiv1 dot_S512x1024_S1024x64_S512x64_1_0_0_1_n_n 1024 rfl rfl).symm]
  refine Finset.sum_congr rfl fun j _ => ?_
  have hk := ValueIdx.contrEquiv1_symm_val dot_S512x1024_S1024x64_S512x64_1_0_0_1_n_n 1024 rfl rfl j
  have el : dot_S512x1024_S1024x64_S512x64_1_0_0_1_n_n.lhsIdx (ix2 r e) ((ValueIdx.contrEquiv1 dot_S512x1024_S1024x64_S512x64_1_0_0_1_n_n 1024 rfl rfl).symm j) = ix2 r j := funext fun a => Fin.ext (by
    match a with
    | ⟨0, _⟩ => exact lhs_out_0 _ _
    | ⟨1, _⟩ => exact (lhs_out_1 _ _).trans hk)
  have er : dot_S512x1024_S1024x64_S512x64_1_0_0_1_n_n.rhsIdx (ix2 r e) ((ValueIdx.contrEquiv1 dot_S512x1024_S1024x64_S512x64_1_0_0_1_n_n 1024 rfl rfl).symm j) = ix2 j e := funext fun a => Fin.ext (by
    match a with
    | ⟨0, _⟩ => exact (rhs_out_0 _ _).trans hk
    | ⟨1, _⟩ => exact rhs_out_1 _ _)
  rw [el, er]

/-! ## Two slabs stacked along the rows -/

/-- Two 512-row slabs stacked, read at row j: the first slab for j < 512, the second at j - 512. -/
theorem stack_apply {α : Type} (a b : S512x64.Idx → α) (h : Shape.Concatenates [S512x64, S512x64] S1024x64 0)
    (j : Fin 1024) (e : Fin 64) :
    concatenate S1024x64 0 [⟨S512x64, a⟩, ⟨S512x64, b⟩] h (ix2 j e)
      = if hj : j.val < 512 then a (ix2 ⟨j.val, hj⟩ e) else b (ix2 ⟨j.val - 512, by have := j.isLt; omega⟩ e) := by
  split
  · next hj =>
    exact concatenate_pair_apply_left (0 : Fin S1024x64.rank) a b h (ix2 j e) rfl (ix2 ⟨j.val, hj⟩ e) (fun c => by
      match c with
      | ⟨0, _⟩ => rfl
      | ⟨1, _⟩ => rfl)
  · next hj =>
    exact concatenate_pair_apply_right (0 : Fin S1024x64.rank) a b h (ix2 j e) rfl rfl
      (ix2 ⟨j.val - 512, by have := j.isLt; omega⟩ e) (fun c hc => by
        match c with
        | ⟨0, _⟩ => exact absurd rfl hc
        | ⟨1, _⟩ => rfl) (by show j.val - 512 + 512 = j.val; omega)

/-! ## The constants -/

/-- The pattern of 0.125 denotes 1/8. -/
theorem ofBits_eighth : Ideal.ofBits .f32 0x3E000000#32 = Cert.Spec.eighth := by
  unfold Cert.Spec.eighth
  simp [Ideal.ofBits, Ideal.ieee, -EReal.coe_mul]; norm_num

/-- The pattern of minus infinity denotes the bottom element. -/
theorem ofBits_ninf : Ideal.ofBits .f32 0xFF800000#32 = ⊥ := by
  simp [Ideal.ofBits, Ideal.ieee]

/-! ## A row's maximum and a row's sum -/

/-- The inserted index of row r at column k is (r, k). -/
theorem lift_row (h : S512x1024.Reduces [1] S512) (r : Fin 512) (k : Fin 1024) : h.lift (ix1 r) k = ix2 r k := by
  funext c
  apply Fin.ext
  match c with
  | ⟨0, _⟩ => rfl
  | ⟨1, _⟩ => rfl

/-- The maximum over the columns from the bottom element, at row r. -/
theorem rowMax_apply (s : FVec Ideal S512x1024 .f32) (h : S512x1024.Reduces [1] S512) (hφ : FKind.Formats .f32)
    (hacc : (0xFF800000#32 : BitVec 32) = 0xFF800000#32) (r : Fin 512) :
    multiReduction (F := Ideal) .maximumf [1] S512 s 0xFF800000#32 h hφ hacc (ix1 r)
      = Cert.Spec.rowMax (fun j : Fin 1024 => s (ix2 r j)) := by
  refine (Ideal.multiReduction_maximumf_single s 0xFF800000#32 h hφ hacc (ix1 r)).trans ?_
  unfold Cert.Spec.rowMax
  have hf : (s ∘ h.lift (ix1 r)) = fun j : Fin 1024 => s (ix2 r j) := funext fun k => congrArg s (lift_row h r k)
  rw [hf]
  exact congrArg (fun z => (Finset.univ : Finset (Fin 1024)).fold max z fun j : Fin 1024 => s (ix2 r j)) ofBits_ninf

/-- The sum over the columns, at row r. -/
theorem rowSum_apply (p : FVec Ideal S512x1024 .f32) (h : S512x1024.Reduces [1] S512) (hφ : FKind.Formats .f32)
    (hacc : (0x00000000#32 : BitVec 32) = 0x00000000#32) (r : Fin 512) :
    multiReduction (F := Ideal) .add [1] S512 p 0x00000000#32 h hφ hacc (ix1 r) = ∑ j : Fin 1024, p (ix2 r j) := by
  refine (Ideal.multiReduction_add_single p 0x00000000#32 h hφ hacc (ix1 r)).trans ?_
  exact Finset.sum_congr rfl fun k _ => congrArg p (lift_row h r k)

/-! ## The band mask at an index -/

/-- The three signed comparisons on 32-bit words, at block b, row r and band column j: none of the words overflows, so
    each comparison is the integers'. The difference of the two positions is 512 + r - j, and the band column's key row
    is (b - 1) * 512 + j. -/
theorem mask_word (b r j : ℕ) (hb : b < 4) (hr : r < 512) (hj : j < 1024) :
    (BitVec.ofBool (BitVec.sle 0#32 ((BitVec.ofNat 32 b * 512#32 + BitVec.ofNat 32 r) - ((BitVec.ofNat 32 b - 1#32) * 512#32 + BitVec.ofNat 32 j)))
      &&& BitVec.ofBool (BitVec.sle ((BitVec.ofNat 32 b * 512#32 + BitVec.ofNat 32 r) - ((BitVec.ofNat 32 b - 1#32) * 512#32 + BitVec.ofNat 32 j)) 512#32))
      &&& BitVec.ofBool (BitVec.sle 0#32 ((BitVec.ofNat 32 b - 1#32) * 512#32 + BitVec.ofNat 32 j)) = 1#1
    ↔ (j ≤ r + 512 ∧ r ≤ j ∧ (1 ≤ b ∨ 512 ≤ j)) := by
  have ha : (BitVec.ofNat 32 b).toInt = b := WordArith.toInt_ofNat_small b (by omega)
  have hR : (BitVec.ofNat 32 r).toInt = r := WordArith.toInt_ofNat_small r (by omega)
  have hJ : (BitVec.ofNat 32 j).toInt = j := WordArith.toInt_ofNat_small j (by omega)
  have h512 : (512#32 : BitVec 32).toInt = 512 := by decide
  have h1 : (1#32 : BitVec 32).toInt = 1 := by decide
  have h0 : (0#32 : BitVec 32).toInt = 0 := by decide
  have hm : (BitVec.ofNat 32 b * 512#32).toInt = b * 512 := by
    rw [WordArith.toInt_mul_of_bounds _ _ (by rw [ha, h512]; omega) (by rw [ha, h512]; omega), ha, h512]
  have hs : (BitVec.ofNat 32 b - 1#32).toInt = b - 1 := by
    rw [WordArith.toInt_sub_of_bounds _ _ (by rw [ha, h1]; omega) (by rw [ha, h1]; omega), ha, h1]
  have hm' : ((BitVec.ofNat 32 b - 1#32) * 512#32).toInt = ((b : ℤ) - 1) * 512 := by
    rw [WordArith.toInt_mul_of_bounds _ _ (by rw [hs, h512]; omega) (by rw [hs, h512]; omega), hs, h512]
  have h3 : (BitVec.ofNat 32 b * 512#32 + BitVec.ofNat 32 r).toInt = (b : ℤ) * 512 + r := by
    rw [WordArith.toInt_add_of_bounds _ _ (by rw [hm, hR]; omega) (by rw [hm, hR]; omega), hm, hR]
  have h8 : ((BitVec.ofNat 32 b - 1#32) * 512#32 + BitVec.ofNat 32 j).toInt = ((b : ℤ) - 1) * 512 + j := by
    rw [WordArith.toInt_add_of_bounds _ _ (by rw [hm', hJ]; omega) (by rw [hm', hJ]; omega), hm', hJ]
  have h9 : ((BitVec.ofNat 32 b * 512#32 + BitVec.ofNat 32 r) - ((BitVec.ofNat 32 b - 1#32) * 512#32 + BitVec.ofNat 32 j)).toInt
      = ((b : ℤ) * 512 + r) - (((b : ℤ) - 1) * 512 + j) := by
    rw [WordArith.toInt_sub_of_bounds _ _ (by rw [h3, h8]; omega) (by rw [h3, h8]; omega), h3, h8]
  rw [BitVec.ofBool_and_ofBool, BitVec.ofBool_and_ofBool, WordArith.ofBool_eq_one_iff, Bool.and_eq_true, Bool.and_eq_true,
    BitVec.sle_iff_toInt_le, BitVec.sle_iff_toInt_le, BitVec.sle_iff_toInt_le, h9, h8, h0, h512]
  omega

/-- The mask the body computes at query block bi is, at (r, j), the band's visibility. -/
theorem mask_apply (i : grid0.Coords) (bi : Fin 4) (hbi : (i 1).val = bi.val) (r : Fin 512) (j : Fin 1024) :
    k0_pay2 i (ix2 r j) = 1#1 ↔ Cert.Spec.visK bi r j := by
  have h := mask_word bi.val r.val j.val bi.isLt r.isLt j.isLt
  unfold Cert.Spec.visK
  rw [← h, ← hbi]
  have hr0 : iota Kind.tc S512x1024 32 [0] iota_S512x1024_d0_w32 (ix2 r j) = BitVec.ofNat 32 r.val := by
    show BitVec.ofNat 32 (0 * 512 + r.val) = _
    rw [Nat.zero_mul, Nat.zero_add]
  have hj0 : iota Kind.tc S512x1024 32 [1] iota_S512x1024_d1_w32 (ix2 r j) = BitVec.ofNat 32 j.val := by
    show BitVec.ofNat 32 (0 * 1024 + j.val) = _
    rw [Nat.zero_mul, Nat.zero_add]
  unfold k0_pay2
  show IntOp.andi (IntOp.andi (IntOp.cmpi .sge _ _) (IntOp.cmpi .sle _ _)) (IntOp.cmpi .sge _ _) = 1#1 ↔ _
  simp only [subi, addi, broadcast_apply, hr0, hj0]
  exact Iff.rfl

end Cert.KernelIdeal.HeadValue

end
-- ==== Proof.KHead.lean ====
/-
  One head of the banded attention body as one function of its five 512 x 64 slabs (queries; previous and current
  keys; previous and current values) and the band mask, and its value at an index on the extended reals: the
  softmax-weighted sum over the 1024 band columns, the scores the inner products of the scaled query row with the
  band's key rows where the mask shows the column, the bottom element elsewhere.
-/
import proofs.«164029_g46823733461303_cont_8to1_c_288_3_alg».proof.Proof.KBody
import proofs.«164029_g46823733461303_cont_8to1_c_288_3_alg».proof.Proof.Spec
import proofs.«164029_g46823733461303_cont_8to1_c_288_3_alg».proof.Proof.KHeadA
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HeadValue

open Cert.KernelIdeal Cert.KernelIdeal.Gen Cert.KernelIdeal.Hand
open Idealize.ShloMosaic Idealize.ShloMosaic.TcCoe Idealize.ShloMosaic.ValueIdx

variable {F : FTy → Type} [FloatOps F]

/-- One head's arithmetic: scale the queries by 1/8, stack the two key slabs and the two value slabs, take the
    512 x 1024 scores, hide the masked ones behind the bottom element, subtract the row maximum, exponentiate,
    sum the rows, weight the values, divide by the row sums. -/
def headPay (msk : IVec S512x1024 1) (q km k vm v : Vec F S1x512x64 .f32) : FVec F S1x512x64 .f32 :=
  have q2 : FVec F S512x64 .f32 := shapeCast S512x64 q shapeCasts_S1x512x64_S512x64
  have cst : F .f32 := Scalar.ofBits .f32 0x3E000000#32
  have sc : FVec F S512x64 .f32 := broadcast S512x64 cst
  have qs : FVec F S512x64 .f32 := mulf q2 sc
  have km2 : FVec F S512x64 .f32 := shapeCast S512x64 km shapeCasts_S1x512x64_S512x64
  have k2 : FVec F S512x64 .f32 := shapeCast S512x64 k shapeCasts_S1x512x64_S512x64
  have kk : FVec F S1024x64 .f32 := concatenate S1024x64 0 [⟨S512x64, km2⟩, ⟨S512x64, k2⟩] concatenates_S512x64_S512x64_S1024x64_d0
  have vm2 : FVec F S512x64 .f32 := shapeCast S512x64 vm shapeCasts_S1x512x64_S512x64
  have v2 : FVec F S512x64 .f32 := shapeCast S512x64 v shapeCasts_S1x512x64_S512x64
  have vv : FVec F S1024x64 .f32 := concatenate S1024x64 0 [⟨S512x64, vm2⟩, ⟨S512x64, v2⟩] concatenates_S512x64_S512x64_S1024x64_d0
  have z : FVec F S512x1024 .f32 := constant S512x1024 .f32 0x00000000#32
  have s0 : FVec F S512x1024 .f32 := matmul dot_S512x64_S1024x64_S512x1024_1_1_0_0_n_n none qs kk z
  have ninf : F .f32 := Scalar.ofBits .f32 0xFF800000#32
  have nb : FVec F S512x1024 .f32 := broadcast S512x1024 ninf
  have s : FVec F S512x1024 .f32 := select msk s0 nb
  have mx : FVec F S512 .f32 := multiReduction .maximumf [1] S512 s 0xFF800000#32 reduces_S512x1024_S512 (.inl rfl) rfl
  have mx1 : FVec F S512x1 .f32 := shapeCast S512x1 mx shapeCasts_S512_S512x1
  have mxb : FVec F S512x1024 .f32 := broadcastTo S512x1024 mx1 broadcasts_S512x1_S512x1024
  have d : FVec F S512x1024 .f32 := subf s mxb
  have p : FVec F S512x1024 .f32 := exp d
  have den : FVec F S512 .f32 := multiReduction .add [1] S512 p 0x00000000#32 reduces_S512x1024_S512 (.inl rfl) rfl
  have den1 : FVec F S512x1 .f32 := shapeCast S512x1 den shapeCasts_S512_S512x1
  have z2 : FVec F S512x64 .f32 := constant S512x64 .f32 0x00000000#32
  have o : FVec F S512x64 .f32 := matmul dot_S512x1024_S1024x64_S512x64_1_0_0_1_n_n none p vv z2
  have denb : FVec F S512x64 .f32 := broadcastTo S512x64 den1 broadcasts_S512x1_S512x64
  have od : FVec F S512x64 .f32 := divf o denb
  shapeCast S1x512x64 od shapeCasts_S512x64_S1x512x64

/-! ## Each head's store is that function of its slabs -/

theorem st0_eq (i : grid0.Coords) (x0 x1 x2 x3 x4 : Vec F S1x512x768 .f32) :
    st0 i x0 x1 x2 x3 x4 = headPay (k0_pay2 i) (View.ld x0 r0) (View.ld x1 r0) (View.ld x2 r0) (View.ld x3 r0) (View.ld x4 r0) := by
  rfl
theorem st1_eq (i : grid0.Coords) (x0 x1 x2 x3 x4 : Vec F S1x512x768 .f32) :
    st1 i x0 x1 x2 x3 x4 = headPay (k0_pay2 i) (View.ld x0 r64) (View.ld x1 r64) (View.ld x2 r64) (View.ld x3 r64) (View.ld x4 r64) := by
  rfl
theorem st2_eq (i : grid0.Coords) (x0 x1 x2 x3 x4 : Vec F S1x512x768 .f32) :
    st2 i x0 x1 x2 x3 x4 = headPay (k0_pay2 i) (View.ld x0 r128) (View.ld x1 r128) (View.ld x2 r128) (View.ld x3 r128) (View.ld x4 r128) := by
  rfl
theorem st3_eq (i : grid0.Coords) (x0 x1 x2 x3 x4 : Vec F S1x512x768 .f32) :
    st3 i x0 x1 x2 x3 x4 = headPay (k0_pay2 i) (View.ld x0 r192) (View.ld x1 r192) (View.ld x2 r192) (View.ld x3 r192) (View.ld x4 r192) := by
  rfl
theorem st4_eq (i : grid0.Coords) (x0 x1 x2 x3 x4 : Vec F S1x512x768 .f32) :
    st4 i x0 x1 x2 x3 x4 = headPay (k0_pay2 i) (View.ld x0 r256) (View.ld x1 r256) (View.ld x2 r256) (View.ld x3 r256) (View.ld x4 r256) := by
  rfl
theorem st5_eq (i : grid0.Coords) (x0 x1 x2 x3 x4 : Vec F S1x512x768 .f32) :
    st5 i x0 x1 x2 x3 x4 = headPay (k0_pay2 i) (View.ld x0 r320) (View.ld x1 r320) (View.ld x2 r320) (View.ld x3 r320) (View.ld x4 r320) := by
  rfl
theorem st6_eq (i : grid0.Coords) (x0 x1 x2 x3 x4 : Vec F S1x512x768 .f32) :
    st6 i x0 x1 x2 x3 x4 = headPay (k0_pay2 i) (View.ld x0 r384) (View.ld x1 r384) (View.ld x2 r384) (View.ld x3 r384) (View.ld x4 r384) := by
  rfl
theorem st7_eq (i : grid0.Coords) (x0 x1 x2 x3 x4 : Vec F S1x512x768 .f32) :
    st7 i x0 x1 x2 x3 x4 = headPay (k0_pay2 i) (View.ld x0 r448) (View.ld x1 r448) (View.ld x2 r448) (View.ld x3 r448) (View.ld x4 r448) := by
  rfl
theorem st8_eq (i : grid0.Coords) (x0 x1 x2 x3 x4 : Vec F S1x512x768 .f32) :
    st8 i x0 x1 x2 x3 x4 = headPay (k0_pay2 i) (View.ld x0 r512) (View.ld x1 r512) (View.ld x2 r512) (View.ld x3 r512) (View.ld x4 r512) := by
  rfl
theorem st9_eq (i : grid0.Coords) (x0 x1 x2 x3 x4 : Vec F S1x512x768 .f32) :
    st9 i x0 x1 x2 x3 x4 = headPay (k0_pay2 i) (View.ld x0 r576) (View.ld x1 r576) (View.ld x2 r576) (View.ld x3 r576) (View.ld x4 r576) := by
  rfl
theorem st10_eq (i : grid0.Coords) (x0 x1 x2 x3 x4 : Vec F S1x512x768 .f32) :
    st10 i x0 x1 x2 x3 x4 = headPay (k0_pay2 i) (View.ld x0 r640) (View.ld x1 r640) (View.ld x2 r640) (View.ld x3 r640) (View.ld x4 r640) := by
  rfl
theorem st11_eq (i : grid0.Coords) (x0 x1 x2 x3 x4 : Vec F S1x512x768 .f32) :
    st11 i x0 x1 x2 x3 x4 = headPay (k0_pay2 i) (View.ld x0 r704) (View.ld x1 r704) (View.ld x2 r704) (View.ld x3 r704) (View.ld x4 r704) := by
  rfl

/-! ## The head's value at an index -/

/-- The softmax-weighted sum over the band, from slabs given as functions of (row, column): the band's column j is
    row j of the previous slab for j < 512 and row j - 512 of the current one. -/
def headSpec (bi : Fin 4) (q km k vm v : Fin 512 → Fin 64 → EReal) (r : Fin 512) (e : Fin 64) : EReal :=
  Cert.Spec.avgK
    (fun j : Fin 1024 => if Cert.Spec.visK bi r j then
        ∑ e' : Fin 64, (q r e' * Cert.Spec.eighth) * (if h : j.val < 512 then km ⟨j.val, h⟩ e' else k ⟨j.val - 512, by have := j.isLt; omega⟩ e')
      else ⊥)
    (fun j : Fin 1024 => if h : j.val < 512 then vm ⟨j.val, h⟩ e else v ⟨j.val - 512, by have := j.isLt; omega⟩ e)

/-! ## The head's arithmetic in two named stages -/

/-- The masked scores: the scaled queries against the stacked keys, the bottom element where the mask hides the column. -/
def scoresOf (msk : IVec S512x1024 1) (q km k : Vec Ideal S1x512x64 .f32) : FVec Ideal S512x1024 .f32 :=
  select msk
    (matmul dot_S512x64_S1024x64_S512x1024_1_1_0_0_n_n none
      (mulf (shapeCast S512x64 q shapeCasts_S1x512x64_S512x64 : FVec Ideal S512x64 .f32) (broadcast S512x64 (Scalar.ofBits (F := Ideal) .f32 0x3E000000#32)) : FVec Ideal S512x64 .f32)
      (concatenate S1024x64 0 [⟨S512x64, (shapeCast S512x64 km shapeCasts_S1x512x64_S512x64 : FVec Ideal S512x64 .f32)⟩,
        ⟨S512x64, (shapeCast S512x64 k shapeCasts_S1x512x64_S512x64 : FVec Ideal S512x64 .f32)⟩] concatenates_S512x64_S512x64_S1024x64_d0 : FVec Ideal S1024x64 .f32)
      (constant (F := Ideal) S512x1024 .f32 0x00000000#32))
    (broadcast S512x1024 (Scalar.ofBits (F := Ideal) .f32 0xFF800000#32))

/-- The unnormalised weights of a score matrix: each row less its maximum, exponentiated. -/
def weightsOf (s : FVec Ideal S512x1024 .f32) : FVec Ideal S512x1024 .f32 :=
  exp (subf s (broadcastTo S512x1024
    (shapeCast S512x1 (multiReduction (F := Ideal) .maximumf [1] S512 s 0xFF800000#32 reduces_S512x1024_S512 (.inl rfl) rfl) shapeCasts_S512_S512x1)
    broadcasts_S512x1_S512x1024))

/-- The head is the weights against the stacked values, divided by the weights' row sums. -/
theorem headPay_eq (msk : IVec S512x1024 1) (q km k vm v : Vec Ideal S1x512x64 .f32) :
    headPay (F := Ideal) msk q km k vm v
      = shapeCast S1x512x64
          (divf
            (matmul dot_S512x1024_S1024x64_S512x64_1_0_0_1_n_n none (weightsOf (scoresOf msk q km k))
              (concatenate S1024x64 0 [⟨S512x64, (shapeCast S512x64 vm shapeCasts_S1x512x64_S512x64 : FVec Ideal S512x64 .f32)⟩,
                ⟨S512x64, (shapeCast S512x64 v shapeCasts_S1x512x64_S512x64 : FVec Ideal S512x64 .f32)⟩] concatenates_S512x64_S512x64_S1024x64_d0 : FVec Ideal S1024x64 .f32)
              (constant (F := Ideal) S512x64 .f32 0x00000000#32))
            (broadcastTo S512x64
              (shapeCast S512x1 (multiReduction (F := Ideal) .add [1] S512 (weightsOf (scoresOf msk q km k)) 0x00000000#32 reduces_S512x1024_S512 (.inl rfl) rfl) shapeCasts_S512_S512x1)
              broadcasts_S512x1_S512x64))
          shapeCasts_S512x64_S1x512x64 := rfl

/-- The masked score at (r, j): where the mask shows the column, the inner product of the scaled query row with the
    band's key row j. -/
theorem scoresOf_apply (msk : IVec S512x1024 1) (q km k : Vec Ideal S1x512x64 .f32) (r : Fin 512) (j : Fin 1024) :
    scoresOf msk q km k (ix2 r j)
      = if msk (ix2 r j) = 1#1 then
          ∑ e' : Fin 64, (q (ix3 (0 : Fin 1) r e') * Cert.Spec.eighth)
            * (if h : j.val < 512 then km (ix3 (0 : Fin 1) ⟨j.val, h⟩ e') else k (ix3 (0 : Fin 1) ⟨j.val - 512, by have := j.isLt; omega⟩ e'))
        else ⊥ := by
  unfold scoresOf
  show Scalar.select (msk (ix2 r j)) (matmul _ none _ _ _ (ix2 r j)) (Ideal.ofBits .f32 0xFF800000#32) = _
  rw [scores_apply, ofBits_ninf]
  unfold Scalar.select
  refine if_congr Iff.rfl (Finset.sum_congr rfl fun e' _ => ?_) rfl
  rw [stack_apply]
  show shapeCast S512x64 q _ (ix2 r e') * Ideal.ofBits .f32 0x3E000000#32 * _ = _
  rw [ofBits_eighth, shapeCast_1ab_ab_apply]
  congr 1
  split <;> rw [shapeCast_1ab_ab_apply]

/-- The weight at (r, j) is the unnormalised softmax weight of entry j of row r. -/
theorem weightsOf_apply (s : FVec Ideal S512x1024 .f32) (r : Fin 512) (j : Fin 1024) :
    weightsOf s (ix2 r j) = Cert.Spec.wt (fun j : Fin 1024 => s (ix2 r j)) j := by
  unfold weightsOf Cert.Spec.wt
  show Ideal.exp (s (ix2 r j) - broadcastTo S512x1024 _ _ (ix2 r j)) = _
  rw [broadcastTo_a1_ab_apply, shapeCast_a_a1_apply, rowMax_apply]

/-- At the ideal values one head's result at (row r, column e) is the band's softmax-weighted sum, the mask the
    body computes at query block `bi` being the band's visibility. -/
theorem headPay_apply (i : grid0.Coords) (bi : Fin 4) (hbi : (i 1).val = bi.val) (q km k vm v : Vec Ideal S1x512x64 .f32) (r : Fin 512) (e : Fin 64) :
    headPay (F := Ideal) (k0_pay2 i) q km k vm v (ix3 (0 : Fin 1) r e)
      = headSpec bi (fun r e => q (ix3 (0 : Fin 1) r e)) (fun r e => km (ix3 (0 : Fin 1) r e)) (fun r e => k (ix3 (0 : Fin 1) r e))
          (fun r e => vm (ix3 (0 : Fin 1) r e)) (fun r e => v (ix3 (0 : Fin 1) r e)) r e := by
  rw [headPay_eq, shapeCast_ab_1ab_apply, divf_apply, out_apply, broadcastTo_a1_ab_apply, shapeCast_a_a1_apply, rowSum_apply]
  unfold headSpec Cert.Spec.avgK
  have hs : (fun j : Fin 1024 => scoresOf (k0_pay2 i) q km k (ix2 r j))
      = fun j : Fin 1024 => if Cert.Spec.visK bi r j then
          ∑ e' : Fin 64, (q (ix3 (0 : Fin 1) r e') * Cert.Spec.eighth)
            * (if h : j.val < 512 then km (ix3 (0 : Fin 1) ⟨j.val, h⟩ e') else k (ix3 (0 : Fin 1) ⟨j.val - 512, by have := j.isLt; omega⟩ e'))
        else ⊥ :=
    funext fun j => (scoresOf_apply (k0_pay2 i) q km k r j).trans (if_congr (mask_apply i bi hbi r j) rfl rfl)
  have hw : ∀ j : Fin 1024, weightsOf (scoresOf (k0_pay2 i) q km k) (ix2 r j)
      = Cert.Spec.wt (fun j : Fin 1024 => if Cert.Spec.visK bi r j then
          ∑ e' : Fin 64, (q (ix3 (0 : Fin 1) r e') * Cert.Spec.eighth)
            * (if h : j.val < 512 then km (ix3 (0 : Fin 1) ⟨j.val, h⟩ e') else k (ix3 (0 : Fin 1) ⟨j.val - 512, by have := j.isLt; omega⟩ e'))
        else ⊥) j :=
    fun j => (weightsOf_apply _ r j).trans (by rw [hs])
  refine congrArg₂ Ideal.div (Finset.sum_congr rfl fun j _ => ?_) (Finset.sum_congr rfl fun j _ => hw j)
  rw [hw j, stack_apply]
  congr 1
  by_cases hj : j.val < 512
  · rw [dif_pos hj, shapeCast_1ab_ab_apply]
    show _ = dite (j.val < 512) _ _
    rw [dif_pos hj]
  · rw [dif_neg hj, shapeCast_1ab_ab_apply]
    show _ = dite (j.val < 512) _ _
    rw [dif_neg hj]

end Cert.KernelIdeal.HeadValue

end
-- ==== Proof.KOut.lean ====
/-
  The output block of the banded attention body at an index: column 64·h + e of row r is head h's
  softmax-weighted sum over the band, a function of the 64-column slabs at offset 64·h of the five input blocks.
-/
import proofs.«164029_g46823733461303_cont_8to1_c_288_3_alg».proof.Proof.KHead

set_option maxRecDepth 16384

noncomputable section

open scoped BigOperators

namespace Cert.KernelIdeal.HeadValue

open Cert.KernelIdeal Cert.KernelIdeal.Gen Cert.KernelIdeal.Hand
open Idealize.ShloMosaic Idealize.ShloMosaic.TcCoe Idealize.ShloMosaic.ValueIdx

/-- Column 64·h + e of a 768-column block. -/
def col (h : Fin 12) (e : Fin 64) : Fin 768 := ⟨64 * h.val + e.val, by have := h.isLt; have := e.isLt; omega⟩

/-- The slab of head h of a [1, 512, 768] block, as a function of (row, column within the slab). -/
def slab (x : Vec Ideal S1x512x768 .f32) (h : Fin 12) : Fin 512 → Fin 64 → EReal := fun r e => x (ix3 (0 : Fin 1) r (col h e))

/-! ## The block as one function of its index -/

/-- The head a column of the 768-column block belongs to. -/
def hd (y : S1x512x768.Idx) : Fin 12 := ⟨(y 2).val / 64, by have : (y 2).val < 768 := (y 2).isLt; omega⟩

/-- A column's position within its head's slab. -/
def cl (y : S1x512x768.Idx) : Fin 64 := ⟨(y 2).val % 64, by omega⟩

/-- The output block as ONE function of the block index: column c of row r is head c / 64's softmax-weighted sum at
    (r, c % 64). -/
def outG (bi : Fin 4) (x0 x1 x2 x3 x4 : Vec Ideal S1x512x768 .f32) : S1x512x768.Idx → EReal := fun y =>
  headSpec bi (slab x0 (hd y)) (slab x1 (hd y)) (slab x2 (hd y)) (slab x3 (hd y)) (slab x4 (hd y)) (y 1) (cl y)

/-- A block read through the 512 x 64 unit-stride rectangle at column offset 64·h is head h's slab. -/
theorem ld_slab (x : Vec Ideal S1x512x768 .f32) (h : Fin 12) (off : Fin 3 → ℕ)
    (inb : ∀ a, off a + S1x512x64.size a ≤ S1x512x768.size a) (h0 : off 0 = 0) (h1 : off 1 = 0) (h2 : off 2 = 64 * h.val) :
    (fun (r : Fin 512) (e : Fin 64) => View.ld x (Rect.unit (s := S1x512x768) off S1x512x64.size inb) (ix3 (0 : Fin 1) r e)) = slab x h := by
  funext r e
  show x ((Rect.unit (s := S1x512x768) off S1x512x64.size inb).idx (ix3 (0 : Fin 1) r e)) = x (ix3 (0 : Fin 1) r (col h e))
  congr 1
  funext a
  match a with
  | ⟨0, _⟩ => apply Fin.ext; show off 0 + 1 * 0 = 0; omega
  | ⟨1, _⟩ => apply Fin.ext; show off 1 + 1 * r.val = r.val; omega
  | ⟨2, _⟩ => apply Fin.ext; show off 2 + 1 * e.val = 64 * h.val + e.val; omega

/-- One head's result, computed from the slabs read at column offset 64·h, is the block function on that rectangle. -/
theorem piece_eq (i : grid0.Coords) (bi : Fin 4) (hbi : (i 1).val = bi.val) (x0 x1 x2 x3 x4 : Vec Ideal S1x512x768 .f32)
    (h : Fin 12) (off : Fin 3 → ℕ) (inb : ∀ a, off a + S1x512x64.size a ≤ S1x512x768.size a)
    (h0 : off 0 = 0) (h1 : off 1 = 0) (h2 : off 2 = 64 * h.val)
    (x : (Rect.unit (s := S1x512x768) off S1x512x64.size inb).shape.Idx) :
    headPay (F := Ideal) (k0_pay2 i) (View.ld x0 (Rect.unit (s := S1x512x768) off S1x512x64.size inb))
        (View.ld x1 (Rect.unit (s := S1x512x768) off S1x512x64.size inb)) (View.ld x2 (Rect.unit (s := S1x512x768) off S1x512x64.size inb))
        (View.ld x3 (Rect.unit (s := S1x512x768) off S1x512x64.size inb)) (View.ld x4 (Rect.unit (s := S1x512x768) off S1x512x64.size inb)) x
      = outG bi x0 x1 x2 x3 x4 ((Rect.unit (s := S1x512x768) off S1x512x64.size inb).emb x) := by
  obtain ⟨r, e, rfl⟩ : ∃ (r : Fin 512) (e : Fin 64), x = ix3 (0 : Fin 1) r e :=
    ⟨x 1, x 2, funext fun a => match a with | ⟨0, _⟩ => Subsingleton.elim (α := Fin 1) _ _ | ⟨1, _⟩ => rfl | ⟨2, _⟩ => rfl⟩
  rw [headPay_apply i bi hbi, ld_slab x0 h off inb h0 h1 h2, ld_slab x1 h off inb h0 h1 h2, ld_slab x2 h off inb h0 h1 h2,
    ld_slab x3 h off inb h0 h1 h2, ld_slab x4 h off inb h0 h1 h2]
  have hh : hd ((Rect.unit (s := S1x512x768) off S1x512x64.size inb).emb (ix3 (0 : Fin 1) r e)) = h := by
    apply Fin.ext; show (off 2 + 1 * e.val) / 64 = h.val; have := e.isLt; omega
  have hc : cl ((Rect.unit (s := S1x512x768) off S1x512x64.size inb).emb (ix3 (0 : Fin 1) r e)) = e := by
    apply Fin.ext; show (off 2 + 1 * e.val) % 64 = e.val; have := e.isLt; omega
  have hr : (Rect.unit (s := S1x512x768) off S1x512x64.size inb).emb (ix3 (0 : Fin 1) r e) 1 = r := by
    apply Fin.ext; show off 1 + 1 * r.val = r.val; omega
  unfold outG
  rw [hh, hc, hr]

/-- The output block at (row r, head h, column e) is head h's softmax-weighted sum over the band of the five
    blocks' slabs at that head. -/
theorem out0_5_apply (i : grid0.Coords) (bi : Fin 4) (hbi : (i 1).val = bi.val) (x0 x1 x2 x3 x4 : Vec Ideal S1x512x768 .f32)
    (r : Fin 512) (h : Fin 12) (e : Fin 64) :
    out0_5 (F := Ideal) i x0 x1 x2 x3 x4 (ix3 (0 : Fin 1) r (col h e))
      = headSpec bi (slab x0 h) (slab x1 h) (slab x2 h) (slab x3 h) (slab x4 h) r e := by
  unfold out0_5
  refine (View.canon_apply_of_pieces (outG bi x0 x1 x2 x3 x4) _ ?_ _ (cover0_5 _ _ _ _ _ _ _ _ _ _ _ _ _)).trans ?_
  · intro p hp x
    simp only [List.mem_cons, List.not_mem_nil, or_false] at hp
    rcases hp with rfl | rfl | rfl | rfl | rfl | rfl | rfl | rfl | rfl | rfl | rfl | rfl
    · exact (congrFun (st11_eq i x0 x1 x2 x3 x4) x).trans (piece_eq i bi hbi x0 x1 x2 x3 x4 11 _ _ rfl rfl rfl x)
    · exact (congrFun (st10_eq i x0 x1 x2 x3 x4) x).trans (piece_eq i bi hbi x0 x1 x2 x3 x4 10 _ _ rfl rfl rfl x)
    · exact (congrFun (st9_eq i x0 x1 x2 x3 x4) x).trans (piece_eq i bi hbi x0 x1 x2 x3 x4 9 _ _ rfl rfl rfl x)
    · exact (congrFun (st8_eq i x0 x1 x2 x3 x4) x).trans (piece_eq i bi hbi x0 x1 x2 x3 x4 8 _ _ rfl rfl rfl x)
    · exact (congrFun (st7_eq i x0 x1 x2 x3 x4) x).trans (piece_eq i bi hbi x0 x1 x2 x3 x4 7 _ _ rfl rfl rfl x)
    · exact (congrFun (st6_eq i x0 x1 x2 x3 x4) x).trans (piece_eq i bi hbi x0 x1 x2 x3 x4 6 _ _ rfl rfl rfl x)
    · exact (congrFun (st5_eq i x0 x1 x2 x3 x4) x).trans (piece_eq i bi hbi x0 x1 x2 x3 x4 5 _ _ rfl rfl rfl x)
    · exact (congrFun (st4_eq i x0 x1 x2 x3 x4) x).trans (piece_eq i bi hbi x0 x1 x2 x3 x4 4 _ _ rfl rfl rfl x)
    · exact (congrFun (st3_eq i x0 x1 x2 x3 x4) x).trans (piece_eq i bi hbi x0 x1 x2 x3 x4 3 _ _ rfl rfl rfl x)
    · exact (congrFun (st2_eq i x0 x1 x2 x3 x4) x).trans (piece_eq i bi hbi x0 x1 x2 x3 x4 2 _ _ rfl rfl rfl x)
    · exact (congrFun (st1_eq i x0 x1 x2 x3 x4) x).trans (piece_eq i bi hbi x0 x1 x2 x3 x4 1 _ _ rfl rfl rfl x)
    · exact (congrFun (st0_eq i x0 x1 x2 x3 x4) x).trans (piece_eq i bi hbi x0 x1 x2 x3 x4 0 _ _ rfl rfl rfl x)
  · have hh : hd (ix3 (0 : Fin 1) r (col h e)) = h := by
      apply Fin.ext; show (64 * h.val + e.val) / 64 = h.val; have := e.isLt; omega
    have hc : cl (ix3 (0 : Fin 1) r (col h e)) = e := by
      apply Fin.ext; show (64 * h.val + e.val) % 64 = e.val; have := e.isLt; omega
    unfold outG
    rw [hh, hc]

end Cert.KernelIdeal.HeadValue

end
-- ==== Proof.KValue.lean ====
/-
  The result array of the banded attention program on the extended reals: the output array after the eight
  write-backs, re-laid as [2, 2048, 12, 64], is the banded arrangement of the packed input. Grid point (b, i)
  writes rows 512·i … 512·i + 511 of batch b; its five input blocks are rows of the packed input re-laid as
  [2, 2048, 2304]: the query panel (columns 0 … 767) at block i, the key panel (768 … 1535) at blocks max(i-1, 0)
  and i, the value panel (1536 … 2303) at blocks max(i-1, 0) and i.

  The steps: the banded arrangement written from the five 512 x 64 slabs of rows a grid point reads (the band's
  column j is row j of the previous block for j < 512 and row j - 512 of the current one); the block indices of
  the six windows as closed forms of the grid coordinates; each input block's slab as rows of the packed input
  (a block's coordinate is block index times block size plus the coordinate inside the block, and column
  768·s + 64·h + e of the re-laid array is entry (s, h, e) of the packed row); the output block of a point as its
  block of ONE whole-array function; the eight blocks cover the array; the last re-laying read at an index.
-/
import proofs.«164029_g46823733461303_cont_8to1_c_288_3_alg».proof.Proof.KRun
import proofs.«164029_g46823733461303_cont_8to1_c_288_3_alg».proof.Proof.KOut
import proofs.«164029_g46823733461303_cont_8to1_c_288_3_alg».proof.Proof.Spec
import Idealize.ShloMosaic.Lib.Pipeline.Value
import Idealize.ShloMosaic.Lib.ValueIdx
import Idealize.ShloMosaic.Lib.ValueLayout

set_option maxRecDepth 16384

noncomputable section

open scoped BigOperators

namespace Cert.KernelIdeal.KerValue

open Cert.KernelIdeal Cert.KernelIdeal.Gen Cert.KernelIdeal.Hand Cert.KernelIdeal.HeadValue
open Idealize.ShloMosaic Idealize.ShloMosaic.TcCoe Idealize.ShloMosaic.ValueIdx Idealize.SL.Sem

/-! ## The banded arrangement from rows of the packed input -/

/-- Rows of block i of panel s, head h. -/
def cur (X : Cert.Spec.SArg.Idx → EReal) (b : Fin 2) (i : Fin 4) (s : Fin 3) (h : Fin 12) : Fin 512 → Fin 64 → EReal :=
  fun r e => X (ix5 b (⟨i.val * 512 + r.val, by have := i.isLt; have := r.isLt; omega⟩ : Fin 2048) s h e)

/-- Rows of block i - 1 (block 0 for i = 0) of panel s, head h. -/
def prev (X : Cert.Spec.SArg.Idx → EReal) (b : Fin 2) (i : Fin 4) (s : Fin 3) (h : Fin 12) : Fin 512 → Fin 64 → EReal :=
  fun r e => X (ix5 b (⟨(i.val - 1) * 512 + r.val, by have := i.isLt; have := r.isLt; omega⟩ : Fin 2048) s h e)

theorem band_row (X : Cert.Spec.SArg.Idx → EReal) (b : Fin 2) (i : Fin 4) (s : Fin 3) (h : Fin 12) (j : Fin 1024) (e : Fin 64) :
    (if hj : j.val < 512 then prev X b i s h ⟨j.val, hj⟩ e else cur X b i s h ⟨j.val - 512, by have := j.isLt; omega⟩ e)
      = X (ix5 b (Cert.Spec.bandRow i j) s h e) := by
  by_cases hj : j.val < 512
  · rw [dif_pos hj]
    show X (ix5 b _ s h e) = _
    have : (⟨(i.val - 1) * 512 + j.val, by have := i.isLt; omega⟩ : Fin 2048) = Cert.Spec.bandRow i j :=
      Fin.ext (by show _ = if _ then _ else _; rw [if_pos hj])
    rw [this]
  · rw [dif_neg hj]
    show X (ix5 b _ s h e) = _
    have : (⟨i.val * 512 + (j.val - 512), by have := i.isLt; have := j.isLt; omega⟩ : Fin 2048) = Cert.Spec.bandRow i j :=
      Fin.ext (by show _ = if _ then _ else _; rw [if_neg hj])
    rw [this]

theorem headSpec_rows (X : Cert.Spec.SArg.Idx → EReal) (b : Fin 2) (i : Fin 4) (r : Fin 512) (h : Fin 12) (e : Fin 64) :
    headSpec i (cur X b i 0 h) (prev X b i 1 h) (cur X b i 1 h) (prev X b i 2 h) (cur X b i 2 h) r e = Cert.Spec.kerAt X b i r h e := by
  unfold headSpec Cert.Spec.kerAt
  congr 1
  · funext j
    by_cases hv : Cert.Spec.visK i r j
    · rw [if_pos hv, if_pos hv]
      refine Finset.sum_congr rfl fun e' _ => ?_
      rw [band_row X b i 1 h j e']
      rfl
    · rw [if_neg hv, if_neg hv]
  · funext j
    exact band_row X b i 2 h j e

theorem idx_facts : ∀ t : Fin cfg0.N,
    win0_0.index t (0 : Fin 3) = (grid0.coords t 0).val ∧ win0_0.index t (1 : Fin 3) = (grid0.coords t 1).val ∧ win0_0.index t (2 : Fin 3) = 0
    ∧ win0_1.index t (0 : Fin 3) = (grid0.coords t 0).val ∧ win0_1.index t (1 : Fin 3) = (grid0.coords t 1).val - 1 ∧ win0_1.index t (2 : Fin 3) = 1
    ∧ win0_2.index t (0 : Fin 3) = (grid0.coords t 0).val ∧ win0_2.index t (1 : Fin 3) = (grid0.coords t 1).val ∧ win0_2.index t (2 : Fin 3) = 1
    ∧ win0_3.index t (0 : Fin 3) = (grid0.coords t 0).val ∧ win0_3.index t (1 : Fin 3) = (grid0.coords t 1).val - 1 ∧ win0_3.index t (2 : Fin 3) = 2
    ∧ win0_4.index t (0 : Fin 3) = (grid0.coords t 0).val ∧ win0_4.index t (1 : Fin 3) = (grid0.coords t 1).val ∧ win0_4.index t (2 : Fin 3) = 2
    ∧ win0_5.index t (0 : Fin 3) = (grid0.coords t 0).val ∧ win0_5.index t (1 : Fin 3) = (grid0.coords t 1).val ∧ win0_5.index t (2 : Fin 3) = 0 :=
  (by decide +kernel : ∀ t : Fin grid0.N, _)

theorem idx_onto : ∀ (b : Fin 2) (i : Fin 4), ∃ t : Fin cfg0.N, (grid0.coords t 0).val = b.val ∧ (grid0.coords t 1).val = i.val :=
  (by decide +kernel : ∀ (b : Fin 2) (i : Fin 4), ∃ t : Fin grid0.N, (grid0.coords t 0).val = b.val ∧ (grid0.coords t 1).val = i.val)

/-! ## The staged array and the blocks read off it -/

/-- The array the input windows stage, at (b, l, 768·s + 64·h + e), is the packed input at (b, l, s, h, e). -/
theorem staged_apply (m : (ℓ : Loc nD τ sig) → Buf (Elt Ideal) ℓ) (c : Dev nD)
    (k : S2x2048x2304.Idx) (b : Fin 2) (l : Fin 2048) (s : Fin 3) (h : Fin 12) (e : Fin 64)
    (h0 : (k 0).val = b.val) (h1 : (k 1).val = l.val) (h2 : (k 2).val = 768 * s.val + 64 * h.val + e.val) :
    (V m c main_v0 : FVec Ideal S2x2048x2304 .f32) k
      = (m ((c.tc : Thread nD τ).loc main_arg0) : FVec Ideal S2x2048x3x12x64 .f32) (ix5 b l s h e) := by
  rw [V_main_v0 m c]
  refine shapeCast_apply _ _ k (ix5 b l s h e) ?_
  rw [Shape.rowMajor_val_five, Shape.rowMajor_val_three]
  show (((b.val * 2048 + l.val) * 3 + s.val) * 12 + h.val) * 64 + e.val = ((k 0).val * 2048 + (k 1).val) * 2304 + (k 2).val
  rw [h0, h1, h2]
  have := s.isLt; have := h.isLt; have := e.isLt
  omega

variable (m : (ℓ : Loc nD τ sig) → Buf (Elt Ideal) ℓ) (c : Dev nD)

/-- The query block at point (b, i): rows of block i of the query panel. -/
theorem slab_iblk0 (t : Fin cfg0.N) (b : Fin 2) (i : Fin 4) (hb : (grid0.coords t 0).val = b.val) (hi : (grid0.coords t 1).val = i.val) (h : Fin 12) :
    slab (iblk m c 0 t) h = cur (m ((c.tc : Thread nD τ).loc main_arg0)) b i 0 h := by
  obtain ⟨e0, e1, e2, -⟩ := idx_facts t
  funext r e
  show (V m c main_v0 : FVec Ideal S2x2048x2304 .f32) (((cfg0.win 0).blk t).view.emb (ix3 (0 : Fin 1) r (col h e))) = _
  refine staged_apply m c _ b _ 0 h e ?_ ?_ ?_
  · show win0_0.index t (0 : Fin 3) * 1 + 1 * 0 = b.val; omega
  · show win0_0.index t (1 : Fin 3) * 512 + 1 * r.val = i.val * 512 + r.val; omega
  · show win0_0.index t (2 : Fin 3) * 768 + 1 * (64 * h.val + e.val) = 768 * 0 + 64 * h.val + e.val; omega

/-- The previous key block at point (b, i): rows of block i - 1 (block 0 at i = 0) of the key panel. -/
theorem slab_iblk1 (t : Fin cfg0.N) (b : Fin 2) (i : Fin 4) (hb : (grid0.coords t 0).val = b.val) (hi : (grid0.coords t 1).val = i.val) (h : Fin 12) :
    slab (iblk m c 1 t) h = prev (m ((c.tc : Thread nD τ).loc main_arg0)) b i 1 h := by
  obtain ⟨-, -, -, e0, e1, e2, -⟩ := idx_facts t
  funext r e
  show (V m c main_v0 : FVec Ideal S2x2048x2304 .f32) (((cfg0.win 1).blk t).view.emb (ix3 (0 : Fin 1) r (col h e))) = _
  refine staged_apply m c _ b _ 1 h e ?_ ?_ ?_
  · show win0_1.index t (0 : Fin 3) * 1 + 1 * 0 = b.val; omega
  · show win0_1.index t (1 : Fin 3) * 512 + 1 * r.val = (i.val - 1) * 512 + r.val; omega
  · show win0_1.index t (2 : Fin 3) * 768 + 1 * (64 * h.val + e.val) = 768 * 1 + 64 * h.val + e.val; omega

/-- The current key block at point (b, i): rows of block i of the key panel. -/
theorem slab_iblk2 (t : Fin cfg0.N) (b : Fin 2) (i : Fin 4) (hb : (grid0.coords t 0).val = b.val) (hi : (grid0.coords t 1).val = i.val) (h : Fin 12) :
    slab (iblk m c 2 t) h = cur (m ((c.tc : Thread nD τ).loc main_arg0)) b i 1 h := by
  obtain ⟨-, -, -, -, -, -, e0, e1, e2, -⟩ := idx_facts t
  funext r e
  show (V m c main_v0 : FVec Ideal S2x2048x2304 .f32) (((cfg0.win 2).blk t).view.emb (ix3 (0 : Fin 1) r (col h e))) = _
  refine staged_apply m c _ b _ 1 h e ?_ ?_ ?_
  · show win0_2.index t (0 : Fin 3) * 1 + 1 * 0 = b.val; omega
  · show win0_2.index t (1 : Fin 3) * 512 + 1 * r.val = i.val * 512 + r.val; omega
  · show win0_2.index t (2 : Fin 3) * 768 + 1 * (64 * h.val + e.val) = 768 * 1 + 64 * h.val + e.val; omega

/-- The previous value block at point (b, i): rows of block i - 1 (block 0 at i = 0) of the value panel. -/
theorem slab_iblk3 (t : Fin cfg0.N) (b : Fin 2) (i : Fin 4) (hb : (grid0.coords t 0).val = b.val) (hi : (grid0.coords t 1).val = i.val) (h : Fin 12) :
    slab (iblk m c 3 t) h = prev (m ((c.tc : Thread nD τ).loc main_arg0)) b i 2 h := by
  obtain ⟨-, -, -, -, -, -, -, -, -, e0, e1, e2, -⟩ := idx_facts t
  funext r e
  show (V m c main_v0 : FVec Ideal S2x2048x2304 .f32) (((cfg0.win 3).blk t).view.emb (ix3 (0 : Fin 1) r (col h e))) = _
  refine staged_apply m c _ b _ 2 h e ?_ ?_ ?_
  · show win0_3.index t (0 : Fin 3) * 1 + 1 * 0 = b.val; omega
  · show win0_3.index t (1 : Fin 3) * 512 + 1 * r.val = (i.val - 1) * 512 + r.val; omega
  · show win0_3.index t (2 : Fin 3) * 768 + 1 * (64 * h.val + e.val) = 768 * 2 + 64 * h.val + e.val; omega

/-- The current value block at point (b, i): rows of block i of the value panel. -/
theorem slab_iblk4 (t : Fin cfg0.N) (b : Fin 2) (i : Fin 4) (hb : (grid0.coords t 0).val = b.val) (hi : (grid0.coords t 1).val = i.val) (h : Fin 12) :
    slab (iblk m c 4 t) h = cur (m ((c.tc : Thread nD τ).loc main_arg0)) b i 2 h := by
  obtain ⟨-, -, -, -, -, -, -, -, -, -, -, -, e0, e1, e2, -⟩ := idx_facts t
  funext r e
  show (V m c main_v0 : FVec Ideal S2x2048x2304 .f32) (((cfg0.win 4).blk t).view.emb (ix3 (0 : Fin 1) r (col h e))) = _
  refine staged_apply m c _ b _ 2 h e ?_ ?_ ?_
  · show win0_4.index t (0 : Fin 3) * 1 + 1 * 0 = b.val; omega
  · show win0_4.index t (1 : Fin 3) * 512 + 1 * r.val = i.val * 512 + r.val; omega
  · show win0_4.index t (2 : Fin 3) * 768 + 1 * (64 * h.val + e.val) = 768 * 2 + 64 * h.val + e.val; omega

/-! ## The output array as one function of the packed input -/

/-- The banded arrangement laid out as [2, 2048, 768]: row l is row l % 512 of block l / 512, column c is column
    c % 64 of head c / 64. -/
def banded (X : Cert.Spec.SArg.Idx → EReal) : S2x2048x768.Idx → EReal := fun k =>
  Cert.Spec.kerAt X (k 0) (⟨(k 1).val / 512, by have h : (k 1).val < 2048 := (k 1).isLt; omega⟩ : Fin 4) (⟨(k 1).val % 512, by omega⟩ : Fin 512)
    (⟨(k 2).val / 64, by have h : (k 2).val < 768 := (k 2).isLt; omega⟩ : Fin 12) (⟨(k 2).val % 64, by omega⟩ : Fin 64)

/-- At (b, 512·i + r, 64·h + e) it is the banded arrangement at (b, i, r, h, e). -/
theorem banded_at (X : Cert.Spec.SArg.Idx → EReal) (k : S2x2048x768.Idx) (b : Fin 2) (i : Fin 4) (r : Fin 512) (h : Fin 12) (e : Fin 64)
    (h0 : (k 0).val = b.val) (h1 : (k 1).val = i.val * 512 + r.val) (h2 : (k 2).val = 64 * h.val + e.val) :
    banded X k = Cert.Spec.kerAt X b i r h e := by
  have hr := r.isLt
  have he := e.isLt
  have a0 : (k 0 : Fin 2) = b := Fin.ext h0
  have a1 : (⟨(k 1).val / 512, by have h : (k 1).val < 2048 := (k 1).isLt; omega⟩ : Fin 4) = i := Fin.ext (by show (k 1).val / 512 = i.val; omega)
  have a2 : (⟨(k 1).val % 512, by omega⟩ : Fin 512) = r := Fin.ext (by show (k 1).val % 512 = r.val; omega)
  have a3 : (⟨(k 2).val / 64, by have h : (k 2).val < 768 := (k 2).isLt; omega⟩ : Fin 12) = h := Fin.ext (by show (k 2).val / 64 = h.val; omega)
  have a4 : (⟨(k 2).val % 64, by omega⟩ : Fin 64) = e := Fin.ext (by show (k 2).val % 64 = e.val; omega)
  unfold banded
  rw [a0, a1, a2, a3, a4]

/-- The output block of point (b, i) at an index is the banded arrangement where the output window puts that index. -/
theorem out_at (t : Fin cfg0.N) (y : S1x512x768.Idx) :
    out0_5 (F := Ideal) (grid0.coords t) (iblk m c 0 t) (iblk m c 1 t) (iblk m c 2 t) (iblk m c 3 t) (iblk m c 4 t) y
      = banded (m ((c.tc : Thread nD τ).loc main_arg0)) (((cfg0.win 5).blk t).view.emb y) := by
  obtain ⟨b, i, hb, hi⟩ : ∃ (b : Fin 2) (i : Fin 4), (grid0.coords t 0).val = b.val ∧ (grid0.coords t 1).val = i.val :=
    ⟨grid0.coords t 0, grid0.coords t 1, rfl, rfl⟩
  obtain ⟨r, cc, rfl⟩ : ∃ (r : Fin 512) (cc : Fin 768), y = ix3 (0 : Fin 1) r cc :=
    ⟨y 1, y 2, funext fun a => match a with | ⟨0, _⟩ => Subsingleton.elim (α := Fin 1) _ _ | ⟨1, _⟩ => rfl | ⟨2, _⟩ => rfl⟩
  obtain ⟨h, e, rfl⟩ : ∃ (h : Fin 12) (e : Fin 64), cc = col h e :=
    ⟨⟨cc.val / 64, by have := cc.isLt; omega⟩, ⟨cc.val % 64, by omega⟩, Fin.ext (by show cc.val = 64 * (cc.val / 64) + cc.val % 64; omega)⟩
  obtain ⟨-, -, -, -, -, -, -, -, -, -, -, -, -, -, -, e0, e1, e2⟩ := idx_facts t
  refine (out0_5_apply (grid0.coords t) i hi (iblk m c 0 t) (iblk m c 1 t) (iblk m c 2 t) (iblk m c 3 t) (iblk m c 4 t) r h e).trans ?_
  rw [slab_iblk0 m c t b i hb hi h, slab_iblk1 m c t b i hb hi h, slab_iblk2 m c t b i hb hi h, slab_iblk3 m c t b i hb hi h,
    slab_iblk4 m c t b i hb hi h, headSpec_rows]
  refine (banded_at _ _ b i r h e ?_ ?_ ?_).symm
  · show win0_5.index t (0 : Fin 3) * 1 + 1 * 0 = b.val; omega
  · show win0_5.index t (1 : Fin 3) * 512 + 1 * r.val = i.val * 512 + r.val; omega
  · show win0_5.index t (2 : Fin 3) * 768 + 1 * (64 * h.val + e.val) = 64 * h.val + e.val; omega

/-- What point t writes back is its block of the banded arrangement. -/
theorem flushed_eq (t : Fin cfg0.N) :
    (dats m 0 c).flushed 5 t = ((cfg0.win 5).blk t).view.read (Elt Ideal) (banded (m ((c.tc : Thread nD τ).loc main_arg0))) := by
  show (cfg0.win 5).cut (grid0.coords t) ((dats m 0 c).after 5 t) = _
  rw [after0_5]
  funext y
  exact out_at m c t y

/-- An index of the output array is in point t's block iff each coordinate is in the block's range on its axis. -/
theorem mem_blk (t : Fin cfg0.N) (k : S2x2048x768.Idx) :
    k ∈ ((cfg0.win 5).blk t).view.set
      ↔ ∀ a : Fin 3, win0_5.index t a * S1x512x768.size a ≤ (k a).val ∧ (k a).val < win0_5.index t a * S1x512x768.size a + S1x512x768.size a := by
  show k ∈ ((View.whole main_v1).slice (win0_5.rect t)).set ↔ _
  rw [View.set_slice_whole, Rect.mem_set_unit]
  exact Iff.rfl

/-- Row l of batch b lies in the block of the point (b, l / 512). -/
theorem covered (k : S2x2048x768.Idx) : ∃ t : Fin cfg0.N, (cfg0.win 5).flush t = true ∧ k ∈ ((cfg0.win 5).blk t).view.set := by
  have h0 : (k 0).val < 2 := (k 0).isLt
  have h1 : (k 1).val < 2048 := (k 1).isLt
  have h2 : (k 2).val < 768 := (k 2).isLt
  obtain ⟨t, hb, hi⟩ := idx_onto ⟨(k 0).val, h0⟩ ⟨(k 1).val / 512, by omega⟩
  have hb' : (grid0.coords t 0).val = (k 0).val := hb
  have hi' : (grid0.coords t 1).val = (k 1).val / 512 := hi
  obtain ⟨-, -, -, -, -, -, -, -, -, -, -, -, -, -, -, e0, e1, e2⟩ := idx_facts t
  refine ⟨t, flush0_5 t, ?_⟩
  rw [mem_blk]
  intro a
  match a with
  | ⟨0, _⟩ => show win0_5.index t (0 : Fin 3) * 1 ≤ (k 0).val ∧ (k 0).val < win0_5.index t (0 : Fin 3) * 1 + 1; omega
  | ⟨1, _⟩ => show win0_5.index t (1 : Fin 3) * 512 ≤ (k 1).val ∧ (k 1).val < win0_5.index t (1 : Fin 3) * 512 + 512; omega
  | ⟨2, _⟩ => show win0_5.index t (2 : Fin 3) * 768 ≤ (k 2).val ∧ (k 2).val < win0_5.index t (2 : Fin 3) * 768 + 768; omega

/-- The output array after the run is the banded arrangement of the packed input, laid out as [2, 2048, 768]. -/
theorem outArr_eq : outArr (F := Ideal) m c = banded (m ((c.tc : Thread nD τ).loc main_arg0)) :=
  (dats m 0 c).arrAt_eq_of_cover 5 (banded (m ((c.tc : Thread nD τ).loc main_arg0))) (fun t _ => flushed_eq m c t) covered

/-- The output array after the run, re-laid as [2, 2048, 12, 64], is the banded arrangement of the launch contents
    of the packed input. -/
theorem res_eq_kerOut (m : (ℓ : Loc nD τ sig) → Buf (Elt Ideal) ℓ) (c : Dev nD) :
    (shapeCast S2x2048x12x64 (outArr (F := Ideal) m c) shapeCasts_S2x2048x768_S2x2048x12x64 : FVec Ideal S2x2048x12x64 .f32)
      = Cert.Spec.kerOut (m ((c.tc : Thread nD τ).loc main_arg0)) := by
  rw [outArr_eq m c]
  funext o
  refine (shapeCast_apply _ _ o (ix3 (o 0) (o 1) (col (o 2) (o 3))) ?_).trans ?_
  · rw [Shape.rowMajor_val_three, Shape.rowMajor_val_four]
    show ((o 0).val * 2048 + (o 1).val) * 768 + (64 * (o 2).val + (o 3).val) = (((o 0).val * 2048 + (o 1).val) * 12 + (o 2).val) * 64 + (o 3).val
    omega
  · unfold Cert.Spec.kerOut
    exact banded_at _ _ (o 0) _ _ (o 2) (o 3) rfl (by show (o 1).val = (o 1).val / 512 * 512 + (o 1).val % 512; omega) rfl

end Cert.KernelIdeal.KerValue

end
-- ==== Proof.RefValue.lean ====
/-
  The reference program's result, read at the ideal values, is the full-row arrangement of causal attention of its
  argument: scores are the scaled inner products where the key row is visible and the bottom element elsewhere,
  the row maximum is subtracted, the exponentials are divided by their row sum, and the values are weighted.
-/
import proofs.«164029_g46823733461303_cont_8to1_c_288_3_alg».proof.Proof.Gen.ReferenceIdeal.Read
import proofs.«164029_g46823733461303_cont_8to1_c_288_3_alg».proof.Proof.Spec
import Idealize.ShloMosaic.Lib.StableHlo.Predicate
import Idealize.ShloMosaic.PureOps.Reduce

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## The three operands: slices of the packed argument, with the head axis moved ahead of the row axis -/

/-- The query operand at (b, h, l, e) is the argument at (b, l, 0, h, e). -/
theorem q_at (x0 : (⟨S2x2048x3x12x64, .f32⟩ : BufTy).Contents (Elt Ideal)) (b : Fin 2) (h : Fin 12) (l : Fin 2048) (e : Fin 64) :
    Read.val_main_v2 (F := Ideal) x0 (ix4 b h l e) = x0 (ix5 b l (0 : Fin 3) h e) := by
  rw [Read.val_main_v2_apply, Read.val_main_v1_apply, Read.val_main_v0_apply]
  refine congrArg x0 (funext fun a => Fin.ext ?_)
  have hb := b.isLt; have hh := h.isLt; have hl := l.isLt; have he := e.isLt
  match a with
  | ⟨0, _⟩ => show (((b.val * 2048 + l.val) * 12 + h.val) * 64 + e.val) / 1572864 = b.val; omega
  | ⟨1, _⟩ => show (((b.val * 2048 + l.val) * 12 + h.val) * 64 + e.val) / 768 % 2048 = l.val; omega
  | ⟨2, _⟩ => rfl
  | ⟨3, _⟩ => show (((b.val * 2048 + l.val) * 12 + h.val) * 64 + e.val) / 64 % 12 = h.val; omega
  | ⟨4, _⟩ => show (((b.val * 2048 + l.val) * 12 + h.val) * 64 + e.val) % 64 = e.val; omega

/-- The key operand at (b, h, k, e) is the argument at (b, k, 1, h, e). -/
theorem k_at (x0 : (⟨S2x2048x3x12x64, .f32⟩ : BufTy).Contents (Elt Ideal)) (b : Fin 2) (h : Fin 12) (l : Fin 2048) (e : Fin 64) :
    Read.val_main_v5 (F := Ideal) x0 (ix4 b h l e) = x0 (ix5 b l (1 : Fin 3) h e) := by
  rw [Read.val_main_v5_apply, Read.val_main_v4_apply, Read.val_main_v3_apply]
  refine congrArg x0 (funext fun a => Fin.ext ?_)
  have hb := b.isLt; have hh := h.isLt; have hl := l.isLt; have he := e.isLt
  match a with
  | ⟨0, _⟩ => show (((b.val * 2048 + l.val) * 12 + h.val) * 64 + e.val) / 1572864 = b.val; omega
  | ⟨1, _⟩ => show (((b.val * 2048 + l.val) * 12 + h.val) * 64 + e.val) / 768 % 2048 = l.val; omega
  | ⟨2, _⟩ => rfl
  | ⟨3, _⟩ => show (((b.val * 2048 + l.val) * 12 + h.val) * 64 + e.val) / 64 % 12 = h.val; omega
  | ⟨4, _⟩ => show (((b.val * 2048 + l.val) * 12 + h.val) * 64 + e.val) % 64 = e.val; omega

/-- The value operand at (b, h, k, e) is the argument at (b, k, 2, h, e). -/
theorem v_at (x0 : (⟨S2x2048x3x12x64, .f32⟩ : BufTy).Contents (Elt Ideal)) (b : Fin 2) (h : Fin 12) (l : Fin 2048) (e : Fin 64) :
    Read.val_main_v8 (F := Ideal) x0 (ix4 b h l e) = x0 (ix5 b l (2 : Fin 3) h e) := by
  rw [Read.val_main_v8_apply, Read.val_main_v7_apply, Read.val_main_v6_apply]
  refine congrArg x0 (funext fun a => Fin.ext ?_)
  have hb := b.isLt; have hh := h.isLt; have hl := l.isLt; have he := e.isLt
  match a with
  | ⟨0, _⟩ => show (((b.val * 2048 + l.val) * 12 + h.val) * 64 + e.val) / 1572864 = b.val; omega
  | ⟨1, _⟩ => show (((b.val * 2048 + l.val) * 12 + h.val) * 64 + e.val) / 768 % 2048 = l.val; omega
  | ⟨2, _⟩ => rfl
  | ⟨3, _⟩ => show (((b.val * 2048 + l.val) * 12 + h.val) * 64 + e.val) / 64 % 12 = h.val; omega
  | ⟨4, _⟩ => show (((b.val * 2048 + l.val) * 12 + h.val) * 64 + e.val) % 64 = e.val; omega

/-! ## The mask: key row k is visible from query row l -/

/-- A conjunction of two one-bit words is set exactly when both are. -/
theorem andi_eq_one_iff (a c : BitVec 1) : IntOp.andi a c = 1#1 ↔ a = 1#1 ∧ c = 1#1 := by
  unfold IntOp.andi
  rcases BitVec.eq_zero_or_eq_one a with rfl | rfl <;> rcases BitVec.eq_zero_or_eq_one c with rfl | rfl <;> decide

/-- Row numbers below 2048 do not wrap as 32-bit words: the test "l ≥ k and l - k ≤ 512" on them is visibility. -/
theorem mask_word (l k : ℕ) (hl : l < 2048) (hk : k < 2048) :
    IntOp.andi (IntOp.cmpi .sge (BitVec.ofNat 32 l) (BitVec.ofNat 32 k))
        (IntOp.cmpi .sle (IntOp.subi (BitVec.ofNat 32 l) (BitVec.ofNat 32 k)) 512#32) = 1#1
      ↔ (k ≤ l ∧ l ≤ k + 512) := by
  have tl : (BitVec.ofNat 32 l).toNat = l := by rw [BitVec.toNat_ofNat]; omega
  have tk : (BitVec.ofNat 32 k).toNat = k := by rw [BitVec.toNat_ofNat]; omega
  rw [andi_eq_one_iff, Predicate.sge_iff_toNat (by omega) (by omega), tl, tk]
  constructor
  · rintro ⟨hkl, h2⟩
    have hs : (IntOp.subi (BitVec.ofNat 32 l) (BitVec.ofNat 32 k)).toNat = l - k := by
      unfold IntOp.subi; rw [BitVec.toNat_sub, tl, tk]; omega
    rw [Predicate.sle_iff_toNat (by omega) (by decide), hs] at h2
    have : (512#32 : BitVec 32).toNat = 512 := by decide
    omega
  · rintro ⟨hkl, h2⟩
    refine ⟨hkl, ?_⟩
    have hs : (IntOp.subi (BitVec.ofNat 32 l) (BitVec.ofNat 32 k)).toNat = l - k := by
      unfold IntOp.subi; rw [BitVec.toNat_sub, tl, tk]; omega
    rw [Predicate.sle_iff_toNat (by omega) (by decide), hs]
    have : (512#32 : BitVec 32).toNat = 512 := by decide
    omega

/-- The broadcast mask at (b, h, l, k) is set exactly when key row k is visible from query row l. -/
theorem mask_at (b : Fin 2) (h : Fin 12) (l k : Fin 2048) :
    Read.val_main_call0_v1 (F := Ideal) (ix4 b h l k) = 1#1 ↔ Cert.Spec.visR l k := by
  rw [Read.val_main_call0_v1_apply, Read.val_main_v25_apply, Read.val_main_v24_apply, Read.val_main_v18_apply,
    Read.val_main_v23_apply, Read.val_main_v21_apply, Read.val_main_v16_apply, Read.val_main_v17_apply,
    Read.val_main_v19_apply, Read.val_main_v20_apply, Read.val_main_v22_apply, Read.val_main_v13_apply,
    Read.val_main_v15_apply, Read.val_main_v12_apply, Read.val_main_v14_apply, Read.val_main_c_apply]
  exact mask_word l.val k.val l.isLt k.isLt

/-! ## The three constants -/

/-- The word 0xFF800000 is the bottom element. -/
theorem ofBits_bot : Ideal.ofBits .f32 0xFF800000#32 = (⊥ : EReal) := by
  simp [Ideal.ofBits, Ideal.ieee]

/-- The word 0x3E000000 is one eighth. -/
theorem ofBits_eighth : Ideal.ofBits .f32 0x3E000000#32 = Cert.Spec.eighth := by
  unfold Cert.Spec.eighth
  simp [Ideal.ofBits, Ideal.ieee, -EReal.coe_mul]; norm_num

/-! ## The scores -/

/-- The score of key row k for query row l of batch b and head h: the scaled inner product where the row is visible,
    the bottom element elsewhere. -/
def sc (x0 : (⟨S2x2048x3x12x64, .f32⟩ : BufTy).Contents (Elt Ideal)) (b : Fin 2) (h : Fin 12) (l : Fin 2048) : Fin 2048 → EReal :=
  fun k => if Cert.Spec.visR l k then
    (∑ e' : Fin 64, x0 (ix5 b l (0 : Fin 3) h e') * x0 (ix5 b k (1 : Fin 3) h e')) * Cert.Spec.eighth else ⊥

/-- The masked, scaled product of the query and key operands at (b, h, l, k) is that score. -/
theorem score_at (x0 : (⟨S2x2048x3x12x64, .f32⟩ : BufTy).Contents (Elt Ideal)) (b : Fin 2) (h : Fin 12) (l k : Fin 2048) :
    Read.val_main_v26 (F := Ideal) x0 (ix4 b h l k) = sc x0 b h l k := by
  rw [Read.val_main_v26_apply, Read.val_main_call0_v2_apply, Read.val_main_call0_v0_apply, Read.val_main_cst_0_apply,
    Read.val_main_v11_apply, Read.val_main_v10_apply, Read.val_main_cst_apply, Read.val_main_v9_apply]
  have el : ∀ e' : Fin 64, Read.lidx_main_v9 (ix4 b h l k) e' = ix4 b h l e' := fun e' =>
    funext fun a => Fin.ext (by match a with | ⟨0, _⟩ => rfl | ⟨1, _⟩ => rfl | ⟨2, _⟩ => rfl | ⟨3, _⟩ => rfl)
  have er : ∀ e' : Fin 64, Read.ridx_main_v9 (ix4 b h l k) e' = ix4 b h k e' := fun e' =>
    funext fun a => Fin.ext (by match a with | ⟨0, _⟩ => rfl | ⟨1, _⟩ => rfl | ⟨2, _⟩ => rfl | ⟨3, _⟩ => rfl)
  simp only [el, er, q_at, k_at, Ideal.ofBits_def, Ideal.mulf_def, ofBits_bot, ofBits_eighth]
  unfold sc
  by_cases hv : Cert.Spec.visR l k
  · rw [(mask_at b h l k).2 hv, select_one, if_pos hv]
  · rw [eq_zero_of_ne_one (fun hm => hv ((mask_at b h l k).1 hm)), select_zero, if_neg hv]

/-! ## The row maximum -/

theorem reduces_d3 : S2x12x2048x2048.Reduces [3] S2x12x2048 := by decide

/-- The reduced index (b, h, l) with key row k put back on the last axis is (b, h, l, k). -/
theorem lift_at (b : Fin 2) (h : Fin 12) (l : Fin 2048) (k : Fin (S2x12x2048x2048.size 3)) :
    reduces_d3.lift (ix3 b h l) k = ix4 b h l (⟨k.val, k.isLt⟩ : Fin 2048) := by
  funext c; apply Fin.ext
  match c with
  | ⟨0, _⟩ => rfl
  | ⟨1, _⟩ => rfl
  | ⟨2, _⟩ => rfl
  | ⟨3, _⟩ => rfl

/-- A fold of the maximum from the bottom element over functions that agree entry by entry. -/
theorem fold_max_eq {n : ℕ} (f g : Fin n → EReal) (i0 : EReal) (h0 : i0 = ⊥) (hfg : ∀ k, f k = g k) :
    (Finset.univ : Finset (Fin n)).fold (FloatOps.maximumf (F := Ideal) (φ := .f32)) i0 f = Cert.Spec.rowMax g := by
  subst h0
  obtain rfl : f = g := funext hfg
  rfl

/-- The maximum over the key rows, once more against the bottom element, at (b, h, l) is the row maximum of the scores. -/
theorem rowmax_at (x0 : (⟨S2x2048x3x12x64, .f32⟩ : BufTy).Contents (Elt Ideal)) (b : Fin 2) (h : Fin 12) (l : Fin 2048) :
    Read.val_main_v29 (F := Ideal) x0 (ix3 b h l) = Cert.Spec.rowMax (sc x0 b h l) := by
  rw [Read.val_main_v29_apply, Read.val_main_v28_apply, Read.val_main_cst_2_apply]
  unfold Read.val_main_v27
  rw [Host.reduce_eq_fold_single FloatOps.maximumf _ _ reducesTo_S2x12x2048x2048_S2x12x2048_d3 reduces_d3 h_S_,
    Read.val_main_cst_1_apply, Ideal.ofBits_def, Ideal.maximumf_def, ofBits_bot, max_bot_left]
  exact fold_max_eq _ _ _ rfl (fun k => by
    show Read.val_main_v26 (F := Ideal) x0 (reduces_d3.lift (ix3 b h l) k) = _
    rw [lift_at, score_at]; rfl)

/-! ## The weights, their sum, and the weighted sum of the value rows -/

/-- The exponential of the score less the row maximum at (b, h, l, k) is the unnormalised weight of key row k. -/
theorem exp_at (x0 : (⟨S2x2048x3x12x64, .f32⟩ : BufTy).Contents (Elt Ideal)) (b : Fin 2) (h : Fin 12) (l k : Fin 2048) :
    Read.val_main_v33 (F := Ideal) x0 (ix4 b h l k) = Cert.Spec.wt (sc x0 b h l) k := by
  rw [Read.val_main_v33_apply, Read.val_main_v32_apply, Read.val_main_v31_apply, Read.val_main_v30_apply, score_at]
  have e : Read.idx_main_v30 (Read.idx_main_v31 (ix4 b h l k)) = ix3 b h l :=
    funext fun a => Fin.ext (by match a with | ⟨0, _⟩ => rfl | ⟨1, _⟩ => rfl | ⟨2, _⟩ => rfl)
  rw [e, rowmax_at, Ideal.subf_def, Ideal.hostUnary_exp_def]
  rfl

/-- The sum over the key rows from the zero word at (b, h, l) is the total weight of the row. -/
theorem rowsum_at (x0 : (⟨S2x2048x3x12x64, .f32⟩ : BufTy).Contents (Elt Ideal)) (b : Fin 2) (h : Fin 12) (l : Fin 2048) :
    Read.val_main_v34 (F := Ideal) x0 (ix3 b h l) = ∑ k : Fin 2048, Cert.Spec.wt (sc x0 b h l) k := by
  rw [Read.val_main_v34_apply, Read.val_main_cst_3_apply, Ideal.ofBits_def, Ideal.ofBits_zero_f32, zero_add]
  refine Finset.sum_congr rfl fun k _ => ?_
  have e : Read.idx_main_v34 (ix3 b h l) k = ix4 b h l k :=
    funext fun a => Fin.ext (by match a with | ⟨0, _⟩ => rfl | ⟨1, _⟩ => rfl | ⟨2, _⟩ => rfl | ⟨3, _⟩ => rfl)
  rw [e, exp_at]

/-- The quotient at (b, h, l, k) is the weight of key row k divided by the total weight. -/
theorem weight_at (x0 : (⟨S2x2048x3x12x64, .f32⟩ : BufTy).Contents (Elt Ideal)) (b : Fin 2) (h : Fin 12) (l k : Fin 2048) :
    Read.val_main_v37 (F := Ideal) x0 (ix4 b h l k)
      = Ideal.div (Cert.Spec.wt (sc x0 b h l) k) (∑ j : Fin 2048, Cert.Spec.wt (sc x0 b h l) j) := by
  rw [Read.val_main_v37_apply, Read.val_main_v36_apply, Read.val_main_v35_apply, exp_at]
  have e : Read.idx_main_v35 (Read.idx_main_v36 (ix4 b h l k)) = ix3 b h l :=
    funext fun a => Fin.ext (by match a with | ⟨0, _⟩ => rfl | ⟨1, _⟩ => rfl | ⟨2, _⟩ => rfl)
  rw [e, rowsum_at, Ideal.hostDivf_def]

/-- The product of the quotients with the value operand over the key rows at (b, h, l, e) is the full-row arrangement. -/
theorem out_at (x0 : (⟨S2x2048x3x12x64, .f32⟩ : BufTy).Contents (Elt Ideal)) (b : Fin 2) (h : Fin 12) (l : Fin 2048) (e : Fin 64) :
    Read.val_main_v38 (F := Ideal) x0 (ix4 b h l e) = Cert.Spec.refAt x0 b l h e := by
  rw [Read.val_main_v38_apply]
  unfold Cert.Spec.refAt Cert.Spec.avgR
  refine Finset.sum_congr rfl fun k _ => ?_
  have el : Read.lidx_main_v38 (ix4 b h l e) k = ix4 b h l k :=
    funext fun a => Fin.ext (by match a with | ⟨0, _⟩ => rfl | ⟨1, _⟩ => rfl | ⟨2, _⟩ => rfl | ⟨3, _⟩ => rfl)
  have er : Read.ridx_main_v38 (ix4 b h l e) k = ix4 b h k e :=
    funext fun a => Fin.ext (by match a with | ⟨0, _⟩ => rfl | ⟨1, _⟩ => rfl | ⟨2, _⟩ => rfl | ⟨3, _⟩ => rfl)
  rw [el, er, weight_at, v_at]
  rfl

/-- The last stage moves the row axis back ahead of the head axis: at (b, l, h, e) it is the full-row arrangement there. -/
theorem last_at (x0 : (⟨S2x2048x3x12x64, .f32⟩ : BufTy).Contents (Elt Ideal)) (b : Fin 2) (l : Fin 2048) (h : Fin 12) (e : Fin 64) :
    Read.val_main_v39 (F := Ideal) x0 (ix4 b l h e) = Cert.Spec.refAt x0 b l h e := by
  rw [Read.val_main_v39_apply]
  have e' : Read.idx_main_v39 (ix4 b l h e) = ix4 b h l e :=
    funext fun a => Fin.ext (by match a with | ⟨0, _⟩ => rfl | ⟨1, _⟩ => rfl | ⟨2, _⟩ => rfl | ⟨3, _⟩ => rfl)
  rw [e', out_at]

/-- The reference's last stage, as a function of the argument array, is the full-row arrangement. -/
theorem val_eq_refOut (x0 : (⟨S2x2048x3x12x64, .f32⟩ : BufTy).Contents (Elt Ideal)) :
    Read.val_main_v39 (F := Ideal) x0 = Cert.Spec.refOut x0 := by
  funext i
  have hi : i = ix4 (n0 := 2) (n1 := 2048) (n2 := 12) (n3 := 64) (i 0) (i 1) (i 2) (i 3) := eq_ix4 i
  calc Read.val_main_v39 (F := Ideal) x0 i
      = Read.val_main_v39 (F := Ideal) x0 (ix4 (n0 := 2) (n1 := 2048) (n2 := 12) (n3 := 64) (i 0) (i 1) (i 2) (i 3)) :=
        congrArg (Read.val_main_v39 (F := Ideal) x0) hi
    _ = Cert.Spec.refAt x0 (i 0) (i 1) (i 2) (i 3) := last_at x0 (i 0) (i 1) (i 2) (i 3)
    _ = Cert.Spec.refOut x0 i := rfl

/-- So the reference run's result term is the full-row arrangement of the launch contents of the argument. -/
theorem res_eq_refOut (m : (ℓ : Loc nD τ sig) → Buf (Elt Ideal) ℓ) (c : Dev nD) :
    Value.res_out0 (F := Ideal) m c = Cert.Spec.refOut (m ((c.tc : Thread nD τ).loc main_arg0)) :=
  (Read.val_main_v39_eq m c).trans (val_eq_refOut _)

end Cert.ReferenceIdeal.RefValue

end
-- ==== Proof.SpecLaw.lean ====
/-
  On finite inputs the banded arrangement of causal attention equals the full-row arrangement.

  The argument has two halves. The first is about one softmax-weighted average over a finite row whose scores
  are real on a visible part and the bottom element elsewhere, with at least one visible entry: the row maximum
  is then a real M, the weight of a visible entry is the real exp (score - M) and that of a hidden one is 0, the
  total is a positive real, and both ways of dividing give the same real number. Two such rows whose visible
  parts correspond one to one, with equal scores and values along the correspondence, therefore have the same
  average. The second half checks that the band of 1024 columns of a query block corresponds in this way to the
  full row of 2048 key rows.
-/
import proofs.«164029_g46823733461303_cont_8to1_c_288_3_alg».proof.Proof.Spec
import Mathlib.Data.Finset.Fold
import Mathlib.Data.EReal.Operations
import Mathlib.Algebra.BigOperators.Group.Finset.Basic
import Mathlib.Algebra.Order.BigOperators.Group.Finset
import Mathlib.Analysis.SpecialFunctions.Exp
import Mathlib.Tactic.Ring

noncomputable section

open scoped BigOperators

namespace Cert.Spec

open Idealize.ShloMosaic Idealize.ShloMosaic.ValueIdx

/-- A finite sum of reals read in the extended reals is the reading of the real sum. -/
theorem coe_sum {ι : Type} (S : Finset ι) (g : ι → ℝ) :
    ∑ j ∈ S, ((g j : ℝ) : EReal) = ((∑ j ∈ S, g j : ℝ) : EReal) := by
  classical
  induction S using Finset.induction_on with
  | empty => simp
  | insert a S ha ih => rw [Finset.sum_insert ha, Finset.sum_insert ha, ih, EReal.coe_add]

/-- The real weight of entry j of a row with visible part P, real scores sr and maximum M. -/
def rwt {n : ℕ} (P : Fin n → Prop) [DecidablePred P] (sr : Fin n → ℝ) (M : ℝ) (j : Fin n) : ℝ :=
  if P j then Real.exp (sr j - M) else 0

section Row

variable {n : ℕ} (s v : Fin n → EReal) (P : Fin n → Prop) [DecidablePred P] (sr vr : Fin n → ℝ)

/-- Every entry is below the row maximum. -/
theorem le_rowMax (j : Fin n) : s j ≤ rowMax s :=
  (Finset.le_fold_max (s j)).2 (Or.inr ⟨j, Finset.mem_univ _, le_rfl⟩)

/-- A row that is real on a non-empty visible part and bottom elsewhere has a real maximum. -/
theorem rowMax_eq_coe (hs : ∀ j, s j = if P j then (sr j : EReal) else ⊥) (hne : ∃ j, P j) :
    ∃ M : ℝ, rowMax s = (M : EReal) := by
  obtain ⟨j0, hj0⟩ := hne
  have h1 : rowMax s ≠ ⊥ := by
    have h := le_rowMax s j0
    rw [hs j0, if_pos hj0] at h
    intro hb
    rw [hb] at h
    exact EReal.coe_ne_bot _ (le_bot_iff.1 h)
  have h2 : rowMax s ≠ ⊤ := by
    have h : rowMax s < ⊤ := (Finset.fold_max_lt ⊤).2 ⟨bot_lt_top, fun j _ => by
      rw [hs j]
      split_ifs
      · exact EReal.coe_lt_top _
      · exact bot_lt_top⟩
    exact h.ne
  exact ⟨(rowMax s).toReal, (EReal.coe_toReal h2 h1).symm⟩

/-- The weights are the real weights: exp (score - M) on the visible part, 0 on the hidden part. -/
theorem wt_eq (hs : ∀ j, s j = if P j then (sr j : EReal) else ⊥) (M : ℝ) (hM : rowMax s = (M : EReal))
    (j : Fin n) : wt s j = ((rwt P sr M j : ℝ) : EReal) := by
  unfold wt rwt
  rw [hM, hs j]
  split_ifs with h
  · rw [← EReal.coe_sub, Ideal.exp_coe]
  · rw [EReal.bot_sub, Ideal.exp_bot, EReal.coe_zero]

/-- The total weight is positive as soon as one entry is visible. -/
theorem rwt_sum_pos (M : ℝ) (hne : ∃ j, P j) : 0 < ∑ j, rwt P sr M j := by
  obtain ⟨j0, hj0⟩ := hne
  refine Finset.sum_pos' (fun j _ => ?_) ⟨j0, Finset.mem_univ _, ?_⟩
  · unfold rwt; split_ifs
    · exact (Real.exp_pos _).le
    · exact le_rfl
  · unfold rwt; rw [if_pos hj0]; exact Real.exp_pos _

/-- Dividing once: the average is the real (∑ w_j v_j) · (1 / ∑ w_j). -/
theorem avgK_eq (hs : ∀ j, s j = if P j then (sr j : EReal) else ⊥) (hv : ∀ j, v j = (vr j : EReal))
    (M : ℝ) (hM : rowMax s = (M : EReal)) (hne : ∃ j, P j) :
    avgK s v = (((∑ j, rwt P sr M j * vr j) * (1 / ∑ j, rwt P sr M j) : ℝ) : EReal) := by
  have hD := rwt_sum_pos P sr M hne
  unfold avgK
  simp_rw [wt_eq s P sr hs M hM, hv, ← EReal.coe_mul, coe_sum]
  rw [Ideal.div_coe hD.ne', ← EReal.coe_mul]

/-- Dividing each weight: the average is the real ∑ (w_j · (1 / ∑ w)) v_j. -/
theorem avgR_eq (hs : ∀ j, s j = if P j then (sr j : EReal) else ⊥) (hv : ∀ j, v j = (vr j : EReal))
    (M : ℝ) (hM : rowMax s = (M : EReal)) (hne : ∃ j, P j) :
    avgR s v = ((∑ j, rwt P sr M j * (1 / ∑ j', rwt P sr M j') * vr j : ℝ) : EReal) := by
  have hD := rwt_sum_pos P sr M hne
  unfold avgR
  simp_rw [wt_eq s P sr hs M hM, hv, coe_sum, Ideal.div_coe hD.ne', ← EReal.coe_mul, coe_sum]

end Row

/-- A row all of whose non-bottom entries occur in another row has the smaller maximum. -/
theorem rowMax_le_rowMax {n m : ℕ} (s : Fin n → EReal) (s' : Fin m → EReal)
    (h : ∀ j, s j = ⊥ ∨ ∃ k, s j = s' k) : rowMax s ≤ rowMax s' := by
  refine (Finset.fold_max_le _).2 ⟨bot_le, fun j _ => ?_⟩
  rcases h j with h | ⟨k, h⟩
  · rw [h]; exact bot_le
  · rw [h]; exact le_rowMax s' k

/-- A sum over the visible part of one row is the sum over the visible part of another, along a one-to-one
    correspondence f of the visible parts. -/
theorem sum_reindex {n m : ℕ} (P : Fin n → Prop) [DecidablePred P] (Q : Fin m → Prop) [DecidablePred Q]
    (f : Fin n → Fin m) (hf : ∀ j, P j → Q (f j)) (hinj : ∀ j j', P j → P j' → f j = f j' → j = j')
    (hsurj : ∀ k, Q k → ∃ j, P j ∧ f j = k) (a : Fin m → ℝ) :
    ∑ j, (if P j then a (f j) else 0) = ∑ k, (if Q k then a k else 0) := by
  rw [← Finset.sum_filter, ← Finset.sum_filter]
  refine Finset.sum_nbij f ?_ ?_ ?_ ?_
  · intro j hj
    rw [Finset.mem_filter] at hj ⊢
    exact ⟨Finset.mem_univ _, hf j hj.2⟩
  · intro j hj j' hj' h
    rw [Finset.mem_coe, Finset.mem_filter] at hj hj'
    exact hinj j j' hj.2 hj'.2 h
  · intro k hk
    rw [Finset.mem_coe, Finset.mem_filter] at hk
    obtain ⟨j, hj, rfl⟩ := hsurj k hk.2
    exact ⟨j, by rw [Finset.mem_coe, Finset.mem_filter]; exact ⟨Finset.mem_univ _, hj⟩, rfl⟩
  · intro j _; rfl

/-- Two rows whose visible parts correspond one to one, with equal scores and values along the correspondence,
    have the same softmax-weighted average, whichever way the division is arranged. -/
theorem avgK_eq_avgR {n m : ℕ} (s v : Fin n → EReal) (s' v' : Fin m → EReal)
    (P : Fin n → Prop) [DecidablePred P] (Q : Fin m → Prop) [DecidablePred Q]
    (sr vr : Fin n → ℝ) (sr' vr' : Fin m → ℝ)
    (hs : ∀ j, s j = if P j then (sr j : EReal) else ⊥) (hv : ∀ j, v j = (vr j : EReal))
    (hs' : ∀ k, s' k = if Q k then (sr' k : EReal) else ⊥) (hv' : ∀ k, v' k = (vr' k : EReal))
    (f : Fin n → Fin m) (hf : ∀ j, P j → Q (f j)) (hinj : ∀ j j', P j → P j' → f j = f j' → j = j')
    (hsurj : ∀ k, Q k → ∃ j, P j ∧ f j = k)
    (hsf : ∀ j, P j → sr j = sr' (f j)) (hvf : ∀ j, P j → vr j = vr' (f j))
    (hne : ∃ j, P j) : avgK s v = avgR s' v' := by
  have hne' : ∃ k, Q k := by
    obtain ⟨j, hj⟩ := hne
    exact ⟨f j, hf j hj⟩
  -- the two maxima agree
  have hmax : rowMax s = rowMax s' := by
    refine le_antisymm (rowMax_le_rowMax s s' fun j => ?_) (rowMax_le_rowMax s' s fun k => ?_)
    · by_cases hj : P j
      · exact Or.inr ⟨f j, by rw [hs j, hs' (f j), if_pos hj, if_pos (hf j hj), hsf j hj]⟩
      · exact Or.inl (by rw [hs j, if_neg hj])
    · by_cases hk : Q k
      · obtain ⟨j, hj, rfl⟩ := hsurj k hk
        exact Or.inr ⟨j, by rw [hs j, hs' (f j), if_pos hj, if_pos hk, hsf j hj]⟩
      · exact Or.inl (by rw [hs' k, if_neg hk])
  obtain ⟨M, hM⟩ := rowMax_eq_coe s P sr hs hne
  have hM' : rowMax s' = (M : EReal) := hmax ▸ hM
  rw [avgK_eq s v P sr vr hs hv M hM hne, avgR_eq s' v' Q sr' vr' hs' hv' M hM' hne']
  -- the real identity
  have hD : ∑ j, rwt P sr M j = ∑ k, rwt Q sr' M k := by
    refine Eq.trans ?_ (sum_reindex P Q f hf hinj hsurj (fun k => Real.exp (sr' k - M)))
    refine Finset.sum_congr rfl fun j _ => ?_
    unfold rwt
    split_ifs with hj
    · rw [hsf j hj]
    · rfl
  have hN : ∑ j, rwt P sr M j * vr j = ∑ k, rwt Q sr' M k * vr' k := by
    have e1 : ∀ k, rwt Q sr' M k * vr' k = if Q k then Real.exp (sr' k - M) * vr' k else 0 := by
      intro k; unfold rwt; split_ifs
      · rfl
      · exact zero_mul _
    simp_rw [e1]
    rw [← sum_reindex P Q f hf hinj hsurj (fun k => Real.exp (sr' k - M) * vr' k)]
    refine Finset.sum_congr rfl fun j _ => ?_
    unfold rwt
    split_ifs with hj
    · rw [hsf j hj, hvf j hj]
    · exact zero_mul _
  rw [hN, hD, Finset.sum_mul]
  congr 1
  refine Finset.sum_congr rfl fun k _ => ?_
  ring

section Band

/-- The query row of block l / 512 at offset l % 512 is row l. -/
theorem blockRow_eq (l : Fin 2048) (h : l.val / 512 * 512 + l.val % 512 < 2048) :
    (⟨l.val / 512 * 512 + l.val % 512, h⟩ : Fin 2048) = l :=
  Fin.ext (by simp only []; omega)

variable (l : Fin 2048)

/-- A visible band column reads a visible key row. -/
theorem visR_bandRow (hi : l.val / 512 < 4) (hr : l.val % 512 < 512) (j : Fin 1024)
    (hj : visK ⟨l.val / 512, hi⟩ ⟨l.val % 512, hr⟩ j) : visR l (bandRow ⟨l.val / 512, hi⟩ j) := by
  unfold visK at hj
  unfold visR bandRow
  simp only [] at hj ⊢
  have := j.isLt
  split_ifs <;> omega

/-- Distinct visible band columns read distinct key rows. -/
theorem bandRow_inj (hi : l.val / 512 < 4) (hr : l.val % 512 < 512) (j j' : Fin 1024)
    (hj : visK ⟨l.val / 512, hi⟩ ⟨l.val % 512, hr⟩ j) (hj' : visK ⟨l.val / 512, hi⟩ ⟨l.val % 512, hr⟩ j')
    (h : bandRow ⟨l.val / 512, hi⟩ j = bandRow ⟨l.val / 512, hi⟩ j') : j = j' := by
  unfold visK at hj hj'
  unfold bandRow at h
  have h' := congrArg Fin.val h
  simp only [] at hj hj' h'
  apply Fin.ext
  split_ifs at h' <;> omega

/-- Every visible key row is read by a visible band column. -/
theorem bandRow_surj (hi : l.val / 512 < 4) (hr : l.val % 512 < 512) (k : Fin 2048) (hk : visR l k) :
    ∃ j, visK ⟨l.val / 512, hi⟩ ⟨l.val % 512, hr⟩ j ∧ bandRow ⟨l.val / 512, hi⟩ j = k := by
  unfold visR at hk
  have := k.isLt
  refine ⟨⟨k.val + 512 - l.val / 512 * 512, by omega⟩, ?_, ?_⟩
  · unfold visK; simp only []; omega
  · unfold bandRow; apply Fin.ext; simp only []; split_ifs <;> omega

end Band

/-- The two arrangements agree at every index, on real inputs. -/
theorem kerAt_eq_refAt (x : SArg.Idx → ℝ) (b : Fin 2) (l : Fin 2048) (h : Fin 12) (e : Fin 64)
    (hi : l.val / 512 < 4) (hr : l.val % 512 < 512) :
    kerAt (fun a => (x a : EReal)) b ⟨l.val / 512, hi⟩ ⟨l.val % 512, hr⟩ h e
      = refAt (fun a => (x a : EReal)) b l h e := by
  have hl : l.val < 2048 := l.isLt
  have hrow : (⟨l.val / 512 * 512 + l.val % 512, by omega⟩ : Fin 2048) = l := blockRow_eq l _
  unfold kerAt refAt
  refine avgK_eq_avgR _ _ _ _ (visK ⟨l.val / 512, hi⟩ ⟨l.val % 512, hr⟩) (visR l)
    (fun j => ∑ e' : Fin 64, (x (ix5 b l (0 : Fin 3) h e') * (1 / 8))
      * x (ix5 b (bandRow ⟨l.val / 512, hi⟩ j) (1 : Fin 3) h e'))
    (fun j => x (ix5 b (bandRow ⟨l.val / 512, hi⟩ j) (2 : Fin 3) h e))
    (fun k => (∑ e' : Fin 64, x (ix5 b l (0 : Fin 3) h e') * x (ix5 b k (1 : Fin 3) h e')) * (1 / 8))
    (fun k => x (ix5 b k (2 : Fin 3) h e))
    ?_ (fun _ => rfl) ?_ (fun _ => rfl) (bandRow ⟨l.val / 512, hi⟩)
    (visR_bandRow l hi hr) (bandRow_inj l hi hr) (bandRow_surj l hi hr) ?_ (fun _ _ => rfl) ?_
  · intro j
    simp only [hrow]
    split_ifs
    · unfold eighth
      simp_rw [← EReal.coe_mul]
      rw [coe_sum]
    · rfl
  · intro k
    split_ifs
    · unfold eighth
      simp_rw [← EReal.coe_mul]
      rw [coe_sum, ← EReal.coe_mul]
    · rfl
  · intro j _
    rw [Finset.sum_mul]
    refine Finset.sum_congr rfl fun e' _ => ?_
    ring
  · refine ⟨⟨l.val % 512 + 512, by omega⟩, ?_⟩
    unfold visK; simp only []; omega

/-- On finite inputs the two arrangements agree. -/
theorem kerOut_eq_refOut (X : SArg.Idx → EReal) (hX : ∀ a, ∃ x : ℝ, X a = (x : EReal)) : kerOut X = refOut X := by
  choose x hx using hX
  obtain rfl : X = fun a => (x a : EReal) := funext hx
  funext o
  exact kerAt_eq_refAt x (o 0) (o 1) (o 2) (o 3) _ _

end Cert.Spec

end
-- ==== Proof.Finite.lean ====
/-
  The precondition makes every entry of the packed input a real number: each entry's absolute value is strictly
  below plus infinity, so the entry is neither infinity.
-/
import proofs.«164029_g46823733461303_cont_8to1_c_288_3_alg».proof.Defs
import proofs.«164029_g46823733461303_cont_8to1_c_288_3_alg».proof.Proof.Gen.Pre_finite_inputs
import Idealize.ShloMosaic.Lib.ReduceAll
import Idealize.ShloMosaic.Lib.ValueIdx
import Idealize.ShloMosaic.PureOps.Ideal.Laws

noncomputable section

namespace Cert.Proof.Finite

open Idealize.ShloMosaic Idealize.ShloMosaic.TcCoe Idealize.SL.Sem

instance : Subsingleton Cert.Pre_finite_inputs.S_.Idx := ⟨fun a b => funext fun d => d.elim0⟩

/-- An extended real whose absolute value is strictly below plus infinity is a real. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- Where the finiteness predicate of an array is all ones, every entry of the array is a real. -/
theorem real_of_pre [hP : Cert.Pre_finite_inputs.Facts] (x : FVec Ideal Cert.Pre_finite_inputs.S2x2048x3x12x64 .f32)
    (h : Cert.Pre_finite_inputs.fn (F := Ideal) x = fun _ => 1#1) (a : Cert.Pre_finite_inputs.S2x2048x3x12x64.Idx) :
    ∃ r : ℝ, x a = (r : EReal) := by
  have h0 := congrFun h ValueIdx.ix0
  dsimp only [Cert.Pre_finite_inputs.fn] at h0
  have h1 := Host.reduce_andi_all _ _ _ _ _ h0 a
  apply real_of_abs_lt_top
  simp only [cmpf, Host.absf, broadcastInDim, constant, Ideal.cmpf_def, Ideal.hostAbsf_def, Ideal.absf_def, Ideal.ofBits_def] at h1
  have htop : Ideal.ofBits .f32 2139095040#32 = ⊤ := by simp [Ideal.ofBits, Ideal.ieee]
  rw [htop] at h1
  unfold Ideal.cmp at h1
  by_contra hne
  simp only [decide_eq_false hne] at h1
  exact absurd h1 (by decide)

end Cert.Proof.Finite

end
-- ==== Proof.Claims.lean ====
/-
  The five claims. The two kernel programs run by the hand-proved launch of their one region; the reference
  by its generated run. On the extended reals the kernel's result is the banded arrangement of causal attention of
  the packed input and the reference's is the full-row arrangement; on finite inputs the two agree.
-/
import proofs.«164029_g46823733461303_cont_8to1_c_288_3_alg».proof.Defs
import proofs.«164029_g46823733461303_cont_8to1_c_288_3_alg».proof.Proof.BRun
import proofs.«164029_g46823733461303_cont_8to1_c_288_3_alg».proof.Proof.KRun
import proofs.«164029_g46823733461303_cont_8to1_c_288_3_alg».proof.Proof.KValue
import proofs.«164029_g46823733461303_cont_8to1_c_288_3_alg».proof.Proof.RefValue
import proofs.«164029_g46823733461303_cont_8to1_c_288_3_alg».proof.Proof.SpecLaw
import proofs.«164029_g46823733461303_cont_8to1_c_288_3_alg».proof.Proof.Finite
import proofs.«164029_g46823733461303_cont_8to1_c_288_3_alg».proof.Proof.Gen.ReferenceIdeal.Run

noncomputable section

namespace Cert.Proof.Claims

open Idealize.ShloMosaic Idealize.ShloMosaic.TcCoe Idealize.SL.Sem

theorem frame_p : Cert.frame_Kernel := fun m ρ _ => Cert.Kernel.Hand.frame m ρ

theorem frame_pi : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the banded arrangement of the packed input: the kernel by its run and value, the reference
    because its full-row arrangement equals the banded one where every entry is a real, which the precondition gives. -/
theorem algebraic : Cert.algebraic_KernelIdeal_ReferenceIdeal := by
  intro m ρ m' ρ' hpre hagree
  refine ⟨fun c => Cert.Spec.kerOut (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (Cert.KernelIdeal.KerValue.res_eq_kerOut m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.RefValue.res_eq_refOut m' c).trans ?_
    rw [hagree c]
    exact (Cert.Spec.kerOut_eq_refOut _ (Cert.Proof.Finite.real_of_pre _ (hpre c))).symm

end Cert.Proof.Claims

end
-- ==== Proof.lean ====
/-
  Banded causal attention against full-row causal attention, window 512, over a packed input qkv[2, 2048, 3, 12, 64].

  The kernel program re-lays the input as [2, 2048, 2304] and runs ONE region over a 2 x 4 grid: point (b, i)
  stages five blocks of that one array — the query rows 512·i …, the key and the value rows of blocks max(i-1, 0)
  and i — and for each of the twelve heads takes the 512 x 1024 scores of the query slab scaled by 1/8 against
  the band's keys, hides the columns that are not visible behind the bottom element, subtracts the row maximum,
  exponentiates, and stores the weighted values divided by the row sum; the result array [2, 2048, 768] is re-laid as
  [2, 2048, 12, 64]. The reference takes all 2048 key rows, scales the inner products, hides the invisible rows the
  same way, and divides each weight by the row sum before weighting the values.

  Frames: both kernel programs run by a hand proof of the launch (the five input windows share one array, lent to
  them in five shares; Proof/KRun.lean, Proof/BRun.lean) over the body's triple (Proof/KBody.lean, Proof/BBody.lean);
  the reference by its generated run. Values, on the extended reals: the kernel's result is the banded arrangement
  of the input (Proof/KHead.lean, Proof/KOut.lean, Proof/KValue.lean), the reference's the full-row arrangement
  (Proof/RefValue.lean); where every entry is a real, which the precondition gives (Proof/Finite.lean), the band's
  rows are exactly the visible rows, the hidden entries weigh nothing, scaling commutes with the inner product and
  division by the positive total distributes over the sum (Proof/SpecLaw.lean). The idealization rewrote nothing.
-/
import proofs.«164029_g46823733461303_cont_8to1_c_288_3_alg».proof.Defs
import proofs.«164029_g46823733461303_cont_8to1_c_288_3_alg».proof.Proof.Claims
import proofs.«164029_g46823733461303_cont_8to1_c_288_3_alg».proof.Proof.Gen.Kernel
import proofs.«164029_g46823733461303_cont_8to1_c_288_3_alg».proof.Proof.Gen.KernelIdeal
import proofs.«164029_g46823733461303_cont_8to1_c_288_3_alg».proof.Proof.Gen.ReferenceIdeal
import proofs.«164029_g46823733461303_cont_8to1_c_288_3_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
